-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S1536x2304 : S_.BroadcastsInDim S1536x2304 (![] : Fin 0 → Fin S1536x2304.rank)
  reducesTo_S1536x2304_S_d0_1 : S1536x2304.ReducesTo [0, 1] S_
  bcast_S_S2304 : S_.BroadcastsInDim S2304 (![] : Fin 0 → Fin S2304.rank)
  reducesTo_S2304_S_d0 : S2304.ReducesTo [0] S_
  bcast_S_S2304x96 : S_.BroadcastsInDim S2304x96 (![] : Fin 0 → Fin S2304x96.rank)
  reducesTo_S2304x96_S_d0_1 : S2304x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S2304x96 1) : IVec S_ 1 :=
  let main_c_5 : IVec S_ 1 := constantI S_ 1 1#1
  let main_v17 : IVec S_ 1 := (fun x v => Host.reduce IntOp.andi x v reducesTo_S2304x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S4x128x768 .f32) (main_arg1 : FVec F S1536x2304 .f32) (main_arg2 : FVec F S2304 .f32) (main_arg3 : FVec F S2304x96 .f32) (main_arg4 : FVec F S96 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S1536x2304 .f32 := Host.absf main_arg1
  let main_cst_0 : FVec F S_ .f32 := constant S_ .f32 0x7F800000#32
  let main_v5 : FVec F S1536x2304 .f32 := broadcastInDim S1536x2304 ![] bcast_S_S1536x2304 main_cst_0
  let main_v6 : IVec S1536x2304 1 := cmpf .olt main_v4 main_v5
  let main_c_1 : IVec S_ 1 := constantI S_ 1 1#1
  let main_v7 : IVec S_ 1 := (fun x v => Host.reduce IntOp.andi x v reducesTo_S1536x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S2304x96 .f32 := Host.absf main_arg3
  let main_cst_4 : FVec F S_ .f32 := constant S_ .f32 0x7F800000#32
  let main_v15 : FVec F S2304x96 .f32 := broadcastInDim S2304x96 ![] bcast_S_S2304x96 main_cst_4
  let main_v16 : IVec S2304x96 1 := cmpf .olt main_v14 main_v15
  fn_part1 (F := F) main_arg4 main_v13 main_v16
-- ==== Kernel.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S768x2304 : Shape := ⟨2, ![768, 2304]⟩
abbrev S_ : Shape := ⟨0, ![]⟩
abbrev S2304x128 : Shape := ⟨2, ![2304, 128]⟩
abbrev S1 : Shape := ⟨1, ![1]⟩
abbrev S128 : Shape := ⟨1, ![128]⟩
abbrev S4x128x128x128 : Shape := ⟨4, ![4, 128, 128, 128]⟩
abbrev S1x16x768 : Shape := ⟨3, ![1, 16, 768]⟩
abbrev S1x128x768 : Shape := ⟨3, ![1, 128, 768]⟩
abbrev S1x16x128x128 : Shape := ⟨4, ![1, 16, 128, 128]⟩
abbrev S16x768 : Shape := ⟨2, ![16, 768]⟩
abbrev S128x768 : Shape := ⟨2, ![128, 768]⟩
abbrev S16x2304 : Shape := ⟨2, ![16, 2304]⟩
abbrev S128x2304 : Shape := ⟨2, ![128, 2304]⟩
abbrev S16x1x2304 : Shape := ⟨3, ![16, 1, 2304]⟩
abbrev S1x128x2304 : Shape := ⟨3, ![1, 128, 2304]⟩
abbrev S16x128x2304 : Shape := ⟨3, ![16, 128, 2304]⟩
abbrev S1x1x2304 : Shape := ⟨3, ![1, 1, 2304]⟩
abbrev S2048x2304 : Shape := ⟨2, ![2048, 2304]⟩
abbrev S2048x128 : Shape := ⟨2, ![2048, 128]⟩
abbrev S1x128 : Shape := ⟨2, ![1, 128]⟩
abbrev S16x128x128 : Shape := ⟨3, ![16, 128, 128]⟩
abbrev S4x128x128x96 : Shape := ⟨4, ![4, 128, 128, 96]⟩
abbrev S4x128x128x24x4 : Shape := ⟨5, ![4, 128, 128, 24, 4]⟩

abbrev nBuf : Space → Nat
  | .hbm => 24
  | .vmem => 11
  | .smem => 0
  | _ => 0

abbrev bufTy : (tb : Table) → Fin (tcTables nBuf tb) → BufTy
  | .hbm, ⟨0, _⟩ => ⟨S4x128x768, .f32⟩
  | .hbm, ⟨1, _⟩ => ⟨S1536x2304, .f32⟩
  | .hbm, ⟨2, _⟩ => ⟨S2304, .f32⟩
  | .hbm, ⟨3, _⟩ => ⟨S2304x96, .f32⟩
  | .hbm, ⟨4, _⟩ => ⟨S96, .f32⟩
  | .hbm, ⟨5, _⟩ => ⟨S768x2304, .f32⟩
  | .hbm, ⟨6, _⟩ => ⟨S768x2304, .bf16⟩
  | .hbm, ⟨7, _⟩ => ⟨S768x2304, .f32⟩
  | .hbm, ⟨8, _⟩ => ⟨S768x2304, .bf16⟩
  | .hbm, ⟨9, _⟩ => ⟨S4x128x768, .bf16⟩
  | .hbm, ⟨10, _⟩ => ⟨S_, .bf16⟩
  | .hbm, ⟨11, _⟩ => ⟨S2304x128, .bf16⟩
  | .hbm, ⟨12, _⟩ => ⟨S2304x96, .bf16⟩
  | .hbm, ⟨13, _⟩ => ⟨S_, .i32⟩
  | .hbm, ⟨14, _⟩ => ⟨S1, .i32⟩
  | .hbm, ⟨15, _⟩ => ⟨S2304x128, .bf16⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S4x128x128x128, .f32⟩
  | .hbm, ⟨22, _⟩ => ⟨S4x128x128x96, .f32⟩
  | .hbm, ⟨23, _⟩ => ⟨S4x128x128x24x4, .f32⟩
  | .local _ .vmem, ⟨0, _⟩ => ⟨S1x16x768, .bf16⟩
  | .local _ .vmem, ⟨1, _⟩ => ⟨S1x16x768, .bf16⟩
  | .local _ .vmem, ⟨2, _⟩ => ⟨S1x128x768, .bf16⟩
  | .local _ .vmem, ⟨3, _⟩ => ⟨S1x128x768, .bf16⟩
  | .local _ .vmem, ⟨4, _⟩ => ⟨S768x2304, .bf16⟩
  | .local _ .vmem, ⟨5, _⟩ => ⟨S768x2304, .bf16⟩
  | .local _ .vmem, ⟨6, _⟩ => ⟨S2304, .f32⟩
  | .local _ .vmem, ⟨7, _⟩ => ⟨S2304x128, .bf16⟩
  | .local _ .vmem, ⟨8, _⟩ => ⟨S128, .f32⟩
  | .local _ .vmem, ⟨9, _⟩ => ⟨S1x16x128x128, .f32⟩
  | .local _ .vmem, ⟨10, _⟩ => ⟨S1x16x128x128, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2304x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1536x2304_S768x2304_0_0 : S1536x2304.Slices ![0, 0] S768x2304
  bitsLt_bf16_f32 : FTy.bits .bf16 < FTy.bits .f32
  slices_S1536x2304_S768x2304_768_0 : S1536x2304.Slices ![768, 0] S768x2304
  bcast_S_S2304x128 : S_.BroadcastsInDim S2304x128 (![] : Fin 0 → Fin S2304x128.rank)
  bcast_S_S1 : S_.BroadcastsInDim S1 (![] : Fin 0 → Fin S1.rank)
  bcast_S_S128 : S_.BroadcastsInDim S128 (![] : Fin 0 → Fin S128.rank)
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  inb_S2304x128_S2304x128_0_0 : ∀ a, (![0, 0] : Fin 2 → Nat) a + S2304x128.size a ≤ S2304x128.size a
  h_S2304x128 : 0 < S2304x128.numel
  shapeCasts_S2304x128_S2304x128 : S2304x128.ShapeCasts S2304x128
  inb_S128_S128_0 : ∀ a, (![0] : Fin 1 → Nat) a + S128.size a ≤ S128.size a
  h_S128 : 0 < S128.numel
  shapeCasts_S128_S128 : S128.ShapeCasts S128
  shapeCasts_S16x2304_S16x1x2304 : S16x2304.ShapeCasts S16x1x2304
  shapeCasts_S128x2304_S1x128x2304 : S128x2304.ShapeCasts S1x128x2304
  broadcasts_S16x1x2304_S16x128x2304 : S16x1x2304.Broadcasts S16x128x2304
  broadcasts_S1x128x2304_S16x128x2304 : S1x128x2304.Broadcasts S16x128x2304
  shapeCasts_S2304_S1x1x2304 : S2304.ShapeCasts S1x1x2304
  broadcasts_S1x1x2304_S16x128x2304 : S1x1x2304.Broadcasts S16x128x2304
  shapeCasts_S16x128x2304_S2048x2304 : S16x128x2304.ShapeCasts S2048x2304
  shapeCasts_S128_S1x128 : S128.ShapeCasts S1x128
  broadcasts_S1x128_S2048x128 : S1x128.Broadcasts S2048x128
  shapeCasts_S2048x128_S16x128x128 : S2048x128.ShapeCasts S16x128x128
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  slices_S4x128x128x128_S4x128x128x96_0_0_0_0 : S4x128x128x128.Slices ![0, 0, 0, 0] S4x128x128x96
  shapeCasts_S4x128x128x96_S4x128x128x24x4 : S4x128x128x96.ShapeCasts S4x128x128x24x4
  scatter_S2304x128_S1_S2304x96_01_n_1_0_wf : ScatterDims.WF S2304x128 S1 S2304x96 [0, 1] [] [1] 0
  scatter_S128_S1_S96_0_n_0_0_wf : ScatterDims.WF S128 S1 S96 [0] [] [0] 0
  dot_S16x768_S768x2304_S16x2304_1_0_0_1_n_n_wf : DotDims.WF S16x768 S768x2304 S16x2304 [1] [0] [0] [1] [] []
  dot_S128x768_S768x2304_S128x2304_1_0_0_1_n_n_wf : DotDims.WF S128x768 S768x2304 S128x2304 [1] [0] [0] [1] [] []
  dot_S2048x2304_S2304x128_S2048x128_1_0_0_1_n_n_wf : DotDims.WF S2048x2304 S2304x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x768.size a ≤ S4x128x768.size a
  hwx0_0 : ∀ i : grid0.Coords, EltTy.bits .bf16 = 32 ∨ (Rect.block (s := S4x128x768) S1x16x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S4x128x768.size a
  hwx0_1 : ∀ i : grid0.Coords, EltTy.bits .bf16 = 32 ∨ (Rect.block (s := S4x128x768) S1x128x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2304.size a ≤ S768x2304.size a
  hwx0_2 : ∀ i : grid0.Coords, EltTy.bits .bf16 = 32 ∨ (Rect.block (s := S768x2304) S768x2304.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x2304.size a ≤ S768x2304.size a
  hwx0_3 : ∀ i : grid0.Coords, EltTy.bits .bf16 = 32 ∨ (Rect.block (s := S768x2304) S768x2304.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2304.size a ≤ S2304.size a
  hwx0_4 : ∀ i : grid0.Coords, EltTy.bits .f32 = 32 ∨ (Rect.block (s := S2304) S2304.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x128.size a ≤ S2304x128.size a
  hwx0_5 : ∀ i : grid0.Coords, EltTy.bits .bf16 = 32 ∨ (Rect.block (s := S2304x128) S2304x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x128x128.size a ≤ S4x128x128x128.size a
  hwx0_7 : ∀ i : grid0.Coords, EltTy.bits .f32 = 32 ∨ (Rect.block (s := S4x128x128x128) S1x16x128x128.size (cc0_transform_7 i) (hinb0_7 i)).WholeWords (EltTy.packing .f32)

variable [Facts₀]

def scatter_S2304x128_S1_S2304x96_01_n_1_0 : ScatterDims S2304x128 S1 S2304x96 where
  updateWindowDims := [0, 1]
  insertedWindowDims := []
  scatterDimsToOperandDims := [1]
  indexVectorDim := 0
  wf := scatter_S2304x128_S1_S2304x96_01_n_1_0_wf
def scatter_S128_S1_S96_0_n_0_0 : ScatterDims S128 S1 S96 where
  updateWindowDims := [0]
  insertedWindowDims := []
  scatterDimsToOperandDims := [0]
  indexVectorDim := 0
  wf := scatter_S128_S1_S96_0_n_0_0_wf
def dot_S16x768_S768x2304_S16x2304_1_0_0_1_n_n : DotDims S16x768 S768x2304 S16x2304 where
  lhsContracting := [1]
  rhsContracting := [0]
  lhsNonContracting := [0]
  rhsNonContracting := [1]
  lhsBatch := []
  rhsBatch := []
  wf := dot_S16x768_S768x2304_S16x2304_1_0_0_1_n_n_wf
def dot_S128x768_S768x2304_S128x2304_1_0_0_1_n_n : DotDims S128x768 S768x2304 S128x2304 where
  lhsContracting := [1]
  rhsContracting := [0]
  lhsNonContracting := [0]
  rhsNonContracting := [1]
  lhsBatch := []
  rhsBatch := []
  wf := dot_S128x768_S768x2304_S128x2304_1_0_0_1_n_n_wf
def dot_S2048x2304_S2304x128_S2048x128_1_0_0_1_n_n : DotDims S2048x2304 S2304x128 S2048x128 where
  lhsContracting := [1]
  rhsContracting := [0]
  lhsNonContracting := [0]
  rhsNonContracting := [1]
  lhsBatch := []
  rhsBatch := []
  wf := dot_S2048x2304_S2304x128_S2048x128_1_0_0_1_n_n_wf

abbrev win0_0 : Pipeline.Window sig grid0 :=
  Pipeline.Window.ofSpec (Memref.whole main_v4) S1x16x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2304x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x16x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x128x768 : Shape := ⟨3, ![4, 128, 768]⟩
abbrev S1536x2304 : Shape := ⟨2, ![1536, 2304]⟩
abbrev S2304 : Shape := ⟨1, ![2304]⟩
abbrev S2304x96 : Shape := ⟨2, ![2304, 96]⟩
abbrev S96 : Shape := ⟨1, ![96]⟩
abbrev S768x2304 : Shape := ⟨2, ![768, 2304]⟩
abbrev S4x128x2304 : Shape := ⟨3, ![4, 128, 2304]⟩
abbrev S4x128x1x2304 : Shape := ⟨4, ![4, 128, 1, 2304]⟩
abbrev S4x1x128x2304 : Shape := ⟨4, ![4, 1, 128, 2304]⟩
abbrev S4x128x128x2304 : Shape := ⟨4, ![4, 128, 128, 2304]⟩
abbrev S1x1x1x2304 : Shape := ⟨4, ![1, 1, 1, 2304]⟩
abbrev S_ : Shape := ⟨0, ![]⟩
abbrev S4x128x128x96 : Shape := ⟨4, ![4, 128, 128, 96]⟩
abbrev S1x1x1x96 : Shape := ⟨4, ![1, 1, 1, 96]⟩
abbrev S4x128x128x24x4 : Shape := ⟨5, ![4, 128, 128, 24, 4]⟩

abbrev nBuf : Space → Nat
  | .hbm => 25
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S1536x2304, .f32⟩
  | .hbm, ⟨2, _⟩ => ⟨S2304, .f32⟩
  | .hbm, ⟨3, _⟩ => ⟨S2304x96, .f32⟩
  | .hbm, ⟨4, _⟩ => ⟨S96, .f32⟩
  | .hbm, ⟨5, _⟩ => ⟨S768x2304, .f32⟩
  | .hbm, ⟨6, _⟩ => ⟨S768x2304, .f32⟩
  | .hbm, ⟨7, _⟩ => ⟨S4x128x2304, .f32⟩
  | .hbm, ⟨8, _⟩ => ⟨S4x128x2304, .f32⟩
  | .hbm, ⟨9, _⟩ => ⟨S4x128x1x2304, .f32⟩
  | .hbm, ⟨10, _⟩ => ⟨S4x1x128x2304, .f32⟩
  | .hbm, ⟨11, _⟩ => ⟨S4x128x128x2304, .f32⟩
  | .hbm, ⟨12, _⟩ => ⟨S4x128x128x2304, .f32⟩
  | .hbm, ⟨13, _⟩ => ⟨S4x128x128x2304, .f32⟩
  | .hbm, ⟨14, _⟩ => ⟨S1x1x1x2304, .f32⟩
  | .hbm, ⟨15, _⟩ => ⟨S4x128x128x2304, .f32⟩
  | .hbm, ⟨16, _⟩ => ⟨S4x128x128x2304, .f32⟩
  | .hbm, ⟨17, _⟩ => ⟨S_, .f32⟩
  | .hbm, ⟨18, _⟩ => ⟨S4x128x128x2304, .f32⟩
  | .hbm, ⟨19, _⟩ => ⟨S4x128x128x2304, .f32⟩
  | .hbm, ⟨20, _⟩ => ⟨S4x128x128x96, .f32⟩
  | .hbm, ⟨21, _⟩ => ⟨S1x1x1x96, .f32⟩
  | .hbm, ⟨22, _⟩ => ⟨S4x128x128x96, .f32⟩
  | .hbm, ⟨23, _⟩ => ⟨S4x128x128x96, .f32⟩
  | .hbm, ⟨24, _⟩ => ⟨S4x128x128x24x4, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  slices_S1536x2304_S768x2304_0_0 : S1536x2304.Slices ![0, 0] S768x2304
  slices_S1536x2304_S768x2304_768_0 : S1536x2304.Slices ![768, 0] S768x2304
  bcast_S4x128x2304_S4x128x1x2304_0_1_3 : S4x128x2304.BroadcastsInDim S4x128x1x2304 (![0, 1, 3] : Fin 3 → Fin S4x128x1x2304.rank)
  bcast_S4x128x2304_S4x1x128x2304_0_2_3 : S4x128x2304.BroadcastsInDim S4x1x128x2304 (![0, 2, 3] : Fin 3 → Fin S4x1x128x2304.rank)
  bcast_S4x128x1x2304_S4x128x128x2304_0_1_2_3 : S4x128x1x2304.BroadcastsInDim S4x128x128x2304 (![0, 1, 2, 3] : Fin 4 → Fin S4x128x128x2304.rank)
  bcast_S4x1x128x2304_S4x128x128x2304_0_1_2_3 : S4x1x128x2304.BroadcastsInDim S4x128x128x2304 (![0, 1, 2, 3] : Fin 4 → Fin S4x128x128x2304.rank)
  bcast_S2304_S1x1x1x2304_3 : S2304.BroadcastsInDim S1x1x1x2304 (![3] : Fin 1 → Fin S1x1x1x2304.rank)
  bcast_S1x1x1x2304_S4x128x128x2304_0_1_2_3 : S1x1x1x2304.BroadcastsInDim S4x128x128x2304 (![0, 1, 2, 3] : Fin 4 → Fin S4x128x128x2304.rank)
  bcast_S_S4x128x128x2304 : S_.BroadcastsInDim S4x128x128x2304 (![] : Fin 0 → Fin S4x128x128x2304.rank)
  bcast_S96_S1x1x1x96_3 : S96.BroadcastsInDim S1x1x1x96 (![3] : Fin 1 → Fin S1x1x1x96.rank)
  bcast_S1x1x1x96_S4x128x128x96_0_1_2_3 : S1x1x1x96.BroadcastsInDim S4x128x128x96 (![0, 1, 2, 3] : Fin 4 → Fin S4x128x128x96.rank)
  shapeCasts_S4x128x128x96_S4x128x128x24x4 : S4x128x128x96.ShapeCasts S4x128x128x24x4
  dot_S4x128x768_S768x2304_S4x128x2304_2_0_01_1_n_n_wf : DotDims.WF S4x128x768 S768x2304 S4x128x2304 [2] [0] [0, 1] [1] [] []
  dot_S4x128x128x2304_S2304x96_S4x128x128x96_3_0_012_1_n_n_wf : DotDims.WF S4x128x128x2304 S2304x96 S4x128x128x96 [3] [0] [0, 1, 2] [1] [] []

variable [Facts₀]

def dot_S4x128x768_S768x2304_S4x128x2304_2_0_01_1_n_n : DotDims S4x128x768 S768x2304 S4x128x2304 where
  lhsContracting := [2]
  rhsContracting := [0]
  lhsNonContracting := [0, 1]
  rhsNonContracting := [1]
  lhsBatch := []
  rhsBatch := []
  wf := dot_S4x128x768_S768x2304_S4x128x2304_2_0_01_1_n_n_wf
def dot_S4x128x128x2304_S2304x96_S4x128x128x96_3_0_012_1_n_n : DotDims S4x128x128x2304 S2304x96 S4x128x128x96 where
  lhsContracting := [3]
  rhsContracting := [0]
  lhsNonContracting := [0, 1, 2]
  rhsNonContracting := [1]
  lhsBatch := []
  rhsBatch := []
  wf := dot_S4x128x128x2304_S2304x96_S4x128x128x96_3_0_012_1_n_n_wf

class Facts : Prop extends Facts₀ where

variable [Facts]
-- ==== Proof.K.Data.lean ====
/- The kernel region's proof data, stated for any float instance: the arrays as the region finds them
   (after the sixteen host operations that slice, convert and pad the weights), each window's block at a
   grid point, what the body leaves in the output window's buffer (one store of the whole block), and the
   fact that every input window's buffer holds its block at every point. The two windows that read the
   converted activations share one array: each holds half of it. -/
import proofs.«130901_j33998961115715_1_alg».proof.Proof.Gen.Kernel.Launch
import proofs.«130901_j33998961115715_1_alg».proof.Proof.Gen.Kernel.Skeleton
import proofs.«130901_j33998961115715_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the two host operations after it, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rIn0 : Rect S1x16x768 := Rect.unit (s := S1x16x768) ![0, 0, 0] S1x16x768.size Facts₀.inb_S1x16x768_S1x16x768_0_0_0
abbrev rIn1 : Rect S1x128x768 := Rect.unit (s := S1x128x768) ![0, 0, 0] S1x128x768.size Facts₀.inb_S1x128x768_S1x128x768_0_0_0
abbrev rIn2 : Rect S768x2304 := Rect.unit (s := S768x2304) ![0, 0] S768x2304.size Facts₀.inb_S768x2304_S768x2304_0_0
abbrev rIn4 : Rect S2304 := Rect.unit (s := S2304) ![0] S2304.size Facts₀.inb_S2304_S2304_0
abbrev rIn5 : Rect S2304x128 := Rect.unit (s := S2304x128) ![0, 0] S2304x128.size Facts₀.inb_S2304x128_S2304x128_0_0
abbrev rIn6 : Rect S128 := Rect.unit (s := S128) ![0] S128.size Facts₀.inb_S128_S128_0
abbrev rOut : Rect S1x16x128x128 := Rect.unit (s := S1x16x128x128) ![0, 0, 0, 0] S1x16x128x128.size Facts₀.inb_S1x16x128x128_S1x16x128x128_0_0_0_0

/-- The output window's staging buffer after the body, from the input windows' blocks: its one store, of the
    whole block, of the body's arithmetic over the seven whole-block loads. -/
def out7 (x0 : Vec F S1x16x768 .bf16) (x1 : Vec F S1x128x768 .bf16) (x2 : Vec F S768x2304 .bf16) (x3 : Vec F S768x2304 .bf16)
    (x4 : Vec F S2304 .f32) (x5 : Vec F S2304x128 .bf16) (x6 : Vec F S128 .f32) : Vec F S1x16x128x128 .f32 :=
  View.canon [⟨rOut, k0_pay1 (View.ld x0 rIn0) (View.ld x1 rIn1) (View.ld x2 rIn2) (View.ld x3 rIn2) (View.ld x4 rIn4) (View.ld x5 rIn5) (View.ld x6 rIn6)⟩]

/-- The one store tiles the buffer, so it covers it. -/
theorem cover7 (p0 : Vec F S1x16x128x128 .f32) (y : S1x16x128x128.Idx) :
    ∃ pc ∈ ([⟨rOut, p0⟩] : List (View.Piece (Elt F) S1x16x128x128 .f32)), y ∈ pc.1.set :=
  View.cover_of_tiled [⟨rOut, p0⟩] S1x16x128x128.size (by rfl) y

/-! ## The proof data -/

/-- The proof data of the pipeline on core `c`: the arrays as the region finds them; after the body at point `t`
    each input's buffer at its block and the output's at `out7` of the input blocks; the invariant the scoped
    rest and the generator register, untouched; nothing owed; the two windows on the converted activations
    hold a half of that array each, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-! ## The contents after the host operations that follow the region -/

/-- Core `c`'s buffer contents when the region is left: as it found them, but for the output array, which holds
    what the write-backs of all the points left there. -/
def Wexit (c : Dev nD) : Valuation τ sig (Elt F) :=
  Function.update (V0 m c) (Proc.devRef .tc main_v12) ((dats m 0 c).arrAt 7 cfg0.N)

/-- Core `c`'s buffer contents at the end of @main: after the slice and the reshape that follow the region. -/
def VT (c : Dev nD) (b : Ref sig .tc) : Buf (Elt F) ((c : Thread nD τ).loc b) :=
  StableHlo.after hostOps1 (Wexit m c) (Proc.devRef .tc b)

/-- The grid point of batch `b` and row tile `it`: the grid is walked batch-major. -/
def pt (b : Fin 4) (it : Fin 8) : Fin cfg0.N := ⟨8 * b.val + it.val, by rw [show cfg0.N = 32 from N_0]; omega⟩

/-! ## The body obligation's two sides, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

end Cert.Kernel.Hand

end
-- ==== Proof.K.Body.lean ====
/- The body obligation of the kernel region, for any float instance: the body loads its seven input blocks whole,
   loads the output buffer (a value it never uses) and stores the whole output block once. -/
import proofs.«130901_j33998961115715_1_alg».proof.Proof.Gen.Kernel.Launch
import proofs.«130901_j33998961115715_1_alg».proof.Proof.Gen.Kernel.Skeleton
import proofs.«130901_j33998961115715_1_alg».proof.Proof.Gen.Kernel.Points
import proofs.«130901_j33998961115715_1_alg».proof.Proof.K.Data
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, the inputs' at read contents `xW` and the output's at anything, runs to
    the continuation holding the inputs' as they were and the output's at `out7` of the inputs'. -/
theorem sound_kernel (c : Dev nD) (E : Set ℕ) (i : grid0.Coords) (arg2 : Memref sig .tc .vmem S1x16x768 .bf16) (harg2 : arg2.IsWhole) (arg3 : Memref sig .tc .vmem S1x128x768 .bf16) (harg3 : arg3.IsWhole) (arg4 : Memref sig .tc .vmem S768x2304 .bf16) (harg4 : arg4.IsWhole) (arg5 : Memref sig .tc .vmem S768x2304 .bf16) (harg5 : arg5.IsWhole) (arg6 : Memref sig .tc .vmem S2304 .f32) (harg6 : arg6.IsWhole) (arg7 : Memref sig .tc .vmem S2304x128 .bf16) (harg7 : arg7.IsWhole) (arg8 : Memref sig .tc .vmem S128 .f32) (harg8 : arg8.IsWhole) (arg9 : Memref sig .tc .vmem S1x16x128x128 .f32) (harg9 : arg9.IsWhole)
    (x0 : Vec F S1x16x768 .bf16) (x1 : Vec F S1x128x768 .bf16) (x2 : Vec F S768x2304 .bf16) (x3 : Vec F S768x2304 .bf16) (x4 : Vec F S2304 .f32) (x5 : Vec F S2304x128 .bf16) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ owns (c : Thread nD τ) arg9 fullShare (out7 x0 x1 x2 x3 x4 x5 x6)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The body obligation, at a generic point -/

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/- The run of the whole program, for any float instance: the host operations before the region, the region under the
   pipeline's rule with the two windows on the converted activations each holding half of that array, and the slice
   and reshape after it. Every weakly fair execution terminates; the pipeline's arrays end at what the proof data
   computes and every other unscoped buffer at its contents after the last two host operations. -/
import proofs.«130901_j33998961115715_1_alg».proof.Proof.Gen.Kernel.Launch
import proofs.«130901_j33998961115715_1_alg».proof.Proof.Gen.Kernel.Skeleton
import proofs.«130901_j33998961115715_1_alg».proof.Proof.Gen.Kernel.Points
import proofs.«130901_j33998961115715_1_alg».proof.Proof.K.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends in: every array of the pipeline at what the library computes from the proof data, every other
    unscoped buffer at its contents after the host operations that follow the region. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = VT m c b

/-! ## The arrays at the region's two ends -/

/-- The pipeline's arrays, window by window, each a whole buffer at the window's share. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v4) ↦{fullShare.left} G 0) ∗ (((c.tc : Thread nD τ).loc main_v4) ↦{fullShare.right} G 1)
          ∗ (((c.tc : Thread nD τ).loc main_v1) ↦{fullShare} G 2) ∗ (((c.tc : Thread nD τ).loc main_v3) ↦{fullShare} G 3)
          ∗ (((c.tc : Thread nD τ).loc main_arg2) ↦{fullShare} G 4) ∗ (((c.tc : Thread nD τ).loc main_v8) ↦{fullShare} G 5)
          ∗ (((c.tc : Thread nD τ).loc main_v11) ↦{fullShare} G 6) ∗ (((c.tc : Thread nD τ).loc main_v12) ↦{fullShare} G 7)) := by
  have h : ((dats m 0 c).arrays G : sProp 𝕄)
      = bigSep Finset.univ fun w : Fin cfg0.W => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]
  rfl

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c.tc : Thread nD τ).loc main_v4) ↦{fullShare} W main_v4) ∗ (((c.tc : Thread nD τ).loc main_v1) ↦{fullShare} W main_v1)
          ∗ (((c.tc : Thread nD τ).loc main_v3) ↦{fullShare} W main_v3) ∗ (((c.tc : Thread nD τ).loc main_arg2) ↦{fullShare} W main_arg2)
          ∗ (((c.tc : Thread nD τ).loc main_v8) ↦{fullShare} W main_v8) ∗ (((c.tc : Thread nD τ).loc main_v11) ↦{fullShare} W main_v11)
          ∗ (((c.tc : Thread nD τ).loc main_v12) ↦{fullShare} W main_v12)) :=
  bigSep_eq_bigSepL_of_eq [main_v4, main_v1, main_v3, main_arg2, main_v8, main_v11, main_v12] (by decide) (by decide) _

/-- At the region's entry: the buffers behind the windows' arrays, each whole, make the proof data's arrays, the
    converted activations dealt in halves to the two windows that read them. -/
theorem hsplit (c : Dev nD) : (Pipeline.arrBufs spec0 c (V m c) : sProp 𝕄) ⊢ (dats m 0 c).arrays ((dats m 0 c).arrAt · 0) := by
  have e : (fun w => (dats m 0 c).arrAt w 0) = fun w => V m c (Pipeline.arrRef spec0 w) :=
    funext fun w => (show (dats m 0 c).arrAt w 0 = (dats m 0 c).A w from rfl).trans (A_eq m c w)
  rw [e, arrays_eq, arrBufs_eq]
  iintro ⟨H4, H1, H3, Ha2, H8, H11, H12⟩
  ihave H4' := (pointsTo_share (PosShare.mem_left_op_right fullShare)).1 $$ H4
  icases H4' with ⟨H4l, H4r⟩
  isplitl [H4l]; · iexact H4l
  isplitl [H4r]; · iexact H4r
  isplitl [H1]; · iexact H1
  isplitl [H3]; · iexact H3
  isplitl [Ha2]; · iexact Ha2
  isplitl [H8]; · iexact H8
  isplitl [H11]; · iexact H11
  iexact H12

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The contents at the two ends of the host operations after the region -/

theorem Wexit_out (c : Dev nD) : Wexit m c (Proc.devRef .tc main_v12) = (dats m 0 c).arrAt 7 cfg0.N := by
  unfold Wexit; exact Function.update_self _ _ _

theorem Wexit_of_ne (c : Dev nD) (b : Ref sig .tc) (h : b ≠ main_v12) : Wexit m c (Proc.devRef .tc b) = V m c b := by
  unfold Wexit; exact Function.update_of_ne (StableHlo.devRef_ne_of_ne h) _ _

/-- A buffer the last two host operations do not write, other than the output array, ends as the region found it. -/
theorem VT_of_ne (c : Dev nD) (b : Ref sig .tc) (h12 : b ≠ main_v12) (h13 : b ≠ main_v13) (h14 : b ≠ main_v14) : VT m c b = V m c b := by
  unfold VT
  rw [StableHlo.after_of_forall_not_mem _ _ (fun op hop => ?_), Wexit_of_ne m c b h12]
  simp only [hostOps1, List.mem_cons, List.mem_nil_iff, or_false] at hop
  rcases hop with rfl | rfl
  · rw [StableHlo.unary_writes, Finset.mem_singleton]; exact StableHlo.devRef_ne_of_ne h13
  · rw [StableHlo.reshape_writes, Finset.mem_singleton]; exact StableHlo.devRef_ne_of_ne h14

/-- The output array is not written by them either. -/
theorem after_tail_out (c : Dev nD) : StableHlo.after hostOps1 (Wexit m c) (Proc.devRef .tc main_v12) = (dats m 0 c).arrAt 7 cfg0.N := by
  rw [StableHlo.after_of_forall_not_mem _ _ (fun op hop => ?_), Wexit_out]
  simp only [hostOps1, List.mem_cons, List.mem_nil_iff, or_false] at hop
  rcases hop with rfl | rfl
  · rw [StableHlo.unary_writes, Finset.mem_singleton]; exact StableHlo.devRef_ne_of_ne (by decide)
  · rw [StableHlo.reshape_writes, Finset.mem_singleton]; exact StableHlo.devRef_ne_of_ne (by decide)

/-- The three buffers the last two host operations touch. -/
abbrev tailS : Finset (DevRef τ sig) := {Proc.devRef .tc main_v12, Proc.devRef .tc main_v13, Proc.devRef .tc main_v14}

theorem held_tail (c : Dev nD) (W : Valuation τ sig (Elt F)) :
    (StableHlo.held (c.tc : Thread nD τ) tailS W : sProp 𝕄)
      = iprop((((c.tc : Thread nD τ).loc main_v12) ↦{fullShare} W (Proc.devRef .tc main_v12))
          ∗ (((c.tc : Thread nD τ).loc main_v13) ↦{fullShare} W (Proc.devRef .tc main_v13))
          ∗ (((c.tc : Thread nD τ).loc main_v14) ↦{fullShare} W (Proc.devRef .tc main_v14))) := by
  unfold StableHlo.held tailS
  rw [bigSep_insert (by
        simp only [Finset.mem_insert, Finset.mem_singleton, not_or]
        exact ⟨StableHlo.devRef_ne_of_ne (by decide), StableHlo.devRef_ne_of_ne (by decide)⟩),
    bigSep_insert (by rw [Finset.mem_singleton]; exact StableHlo.devRef_ne_of_ne (by decide)), bigSep_singleton]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.unary_bufs]
    exact Finset.insert_subset_insert _ (Finset.singleton_subset_iff.mpr (Finset.mem_insert_self _ _))
  · rw [StableHlo.reshape_bufs]
    exact Finset.subset_insert _ _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The host operations after the region: from the region's exit — the boundary, the arrays at their final contents, the
    bypassing buffers as the region found them — the slice and the reshape run within the output array and their two
    result buffers, and hand back the arrays unchanged and the bypassing buffers at their final contents. -/
theorem htail (c : Dev nD) (Q' : PUnit → sProp 𝕄) :
    iprop((iprop((dats m 0 c).arrays ((dats m 0 c).arrAt · cfg0.N) ∗ Pipeline.unscopedRestP Pipeline.Prefetch.none spec0 c (VT m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_eq,
    VT_of_ne m c main_arg0 (by decide) (by decide) (by decide),
    VT_of_ne m c main_arg1 (by decide) (by decide) (by decide),
    VT_of_ne m c main_arg3 (by decide) (by decide) (by decide),
    VT_of_ne m c main_arg4 (by decide) (by decide) (by decide),
    VT_of_ne m c main_v0 (by decide) (by decide) (by decide),
    VT_of_ne m c main_v2 (by decide) (by decide) (by decide),
    VT_of_ne m c main_cst (by decide) (by decide) (by decide),
    VT_of_ne m c main_v5 (by decide) (by decide) (by decide),
    VT_of_ne m c main_v6 (by decide) (by decide) (by decide),
    VT_of_ne m c main_c (by decide) (by decide) (by decide),
    VT_of_ne m c main_v7 (by decide) (by decide) (by decide),
    VT_of_ne m c main_cst_0 (by decide) (by decide) (by decide),
    VT_of_ne m c main_v9 (by decide) (by decide) (by decide),
    VT_of_ne m c main_c_1 (by decide) (by decide) (by decide),
    VT_of_ne m c main_v10 (by decide) (by decide) (by decide)]
  iintro ⟨Hk, Hb, ⟨A0, A1, A2, A3, A4, A5, A6, A7⟩, ⟨R0, R1, R3, R4, Rv0, Rv2, Rcst, Rv5, Rv6, Rc, Rv7, Rcst0, Rv9, Rc1, Rv10, Rv13, Rv14⟩⟩
  have hseq := Pipeline.wp_seqs_then (K := Q') (pcfgs (F := F)) defs₀ Variants.none c tailS [] [hostOps1] tail_sub tail_fresh (Wexit m c)
  rw [held_tail, held_tail, Wexit_out, Wexit_of_ne m c main_v13 (by decide), Wexit_of_ne m c main_v14 (by decide)] at hseq
  simp only [List.flatten_cons, List.flatten_nil, List.append_nil, List.map_cons, List.map_nil] at hseq
  rw [after_tail_out, Pipeline.chain_nil, wp_pure] at hseq
  iapply hseq $$ [Hb A7 Rv13 Rv14]
  · isplitl [Hb]; · iexact Hb
    isplitl [A7]; · iexact A7
    isplitl [Rv13]; · iexact Rv13
    iexact Rv14
  iintro ⟨Hb, A7, Rv13, Rv14⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R3]; · iexact R3
  isplitl [R4]; · iexact R4
  isplitl [Rv0]; · iexact Rv0
  isplitl [Rv2]; · iexact Rv2
  isplitl [Rcst]; · iexact Rcst
  isplitl [Rv5]; · iexact Rv5
  isplitl [Rv6]; · iexact Rv6
  isplitl [Rc]; · iexact Rc
  isplitl [Rv7]; · iexact Rv7
  isplitl [Rcst0]; · iexact Rcst0
  isplitl [Rv9]; · iexact Rv9
  isplitl [Rc1]; · iexact Rc1
  isplitl [Rv10]; · iexact Rv10
  isplitl [Rv13]; · iexact Rv13
  iexact Rv14

-- the launch theorem's implicit arguments are found by unifying its conclusion with this one, which takes unfolding
-- plain definitions in a metavariable's type
set_option backward.isDefEq.respectTransparency.types false in
theorem run_main : θ_run defs (onTc (τ := τ) (main (F := F))) ⟨m, fun _ => 0, ρ⟩ (RunPost m) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj)
          (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (VT m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = VT m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (VT m c) s')
      isplitl [HU] <;> iassumption)
    (hQ := fun s h c => ⟨(h c).1, Pipeline.rest_of_restP Pipeline.Prefetch.none spec0 (fun k => k.elim0) c (VT m c) s (fun k => k.elim0) (h c).2.1 (h c).2.2⟩)

/-- The result buffer ends at its contents after the last host operation, and the arguments as they were. -/
theorem run_value : θ_run defs (onTc (τ := τ) (main (F := F))) ⟨m, fun _ => 0, ρ⟩ (fun r => ∀ c : Dev nD,
      r.2.mem ((c.tc : Thread nD τ).loc main_v14) = VT m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).2 main_v14 (Pipeline.mem_restRefs_of main_v14 rfl (by decide)),
      ((h c).2 main_arg0 (Pipeline.mem_restRefs_of main_arg0 rfl (by decide))).trans
        ((VT_of_ne m c main_arg0 (by decide) (by decide) (by decide)).trans (V_main_arg0 m c)),
      ((h c).2 main_arg1 (Pipeline.mem_restRefs_of main_arg1 rfl (by decide))).trans
        ((VT_of_ne m c main_arg1 (by decide) (by decide) (by decide)).trans (V_main_arg1 m c)),
      ((h c).1 4).trans (((dats m 0 c).arrAt_in 4 rfl _).trans ((A_eq m c 4).trans (V_main_arg2 m c))),
      ((h c).2 main_arg3 (Pipeline.mem_restRefs_of main_arg3 rfl (by decide))).trans
        ((VT_of_ne m c main_arg3 (by decide) (by decide) (by decide)).trans (V_main_arg3 m c)),
      ((h c).2 main_arg4 (Pipeline.mem_restRefs_of main_arg4 rfl (by decide))).trans
        ((VT_of_ne m c main_arg4 (by decide) (by decide) (by decide)).trans (V_main_arg4 m c))⟩) (run_main m ρ)

/-- The frame: the program runs to its end and its argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

end Cert.Kernel.Hand

end
-- ==== Proof.KI.Data.lean ====
/- The kernel region's proof data, stated for any float instance: the arrays as the region finds them
   (after the sixteen host operations that slice, convert and pad the weights), each window's block at a
   grid point, what the body leaves in the output window's buffer (one store of the whole block), and the
   fact that every input window's buffer holds its block at every point. The two windows that read the
   converted activations share one array: each holds half of it. -/
import proofs.«130901_j33998961115715_1_alg».proof.Proof.Gen.KernelIdeal.Launch
import proofs.«130901_j33998961115715_1_alg».proof.Proof.Gen.KernelIdeal.Skeleton
import proofs.«130901_j33998961115715_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the two host operations after it, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rIn0 : Rect S1x16x768 := Rect.unit (s := S1x16x768) ![0, 0, 0] S1x16x768.size Facts₀.inb_S1x16x768_S1x16x768_0_0_0
abbrev rIn1 : Rect S1x128x768 := Rect.unit (s := S1x128x768) ![0, 0, 0] S1x128x768.size Facts₀.inb_S1x128x768_S1x128x768_0_0_0
abbrev rIn2 : Rect S768x2304 := Rect.unit (s := S768x2304) ![0, 0] S768x2304.size Facts₀.inb_S768x2304_S768x2304_0_0
abbrev rIn4 : Rect S2304 := Rect.unit (s := S2304) ![0] S2304.size Facts₀.inb_S2304_S2304_0
abbrev rIn5 : Rect S2304x128 := Rect.unit (s := S2304x128) ![0, 0] S2304x128.size Facts₀.inb_S2304x128_S2304x128_0_0
abbrev rIn6 : Rect S128 := Rect.unit (s := S128) ![0] S128.size Facts₀.inb_S128_S128_0
abbrev rOut : Rect S1x16x128x128 := Rect.unit (s := S1x16x128x128) ![0, 0, 0, 0] S1x16x128x128.size Facts₀.inb_S1x16x128x128_S1x16x128x128_0_0_0_0

/-- The output window's staging buffer after the body, from the input windows' blocks: its one store, of the
    whole block, of the body's arithmetic over the seven whole-block loads. -/
def out7 (x0 : Vec F S1x16x768 .bf16) (x1 : Vec F S1x128x768 .bf16) (x2 : Vec F S768x2304 .bf16) (x3 : Vec F S768x2304 .bf16)
    (x4 : Vec F S2304 .f32) (x5 : Vec F S2304x128 .bf16) (x6 : Vec F S128 .f32) : Vec F S1x16x128x128 .f32 :=
  View.canon [⟨rOut, k0_pay1 (View.ld x0 rIn0) (View.ld x1 rIn1) (View.ld x2 rIn2) (View.ld x3 rIn2) (View.ld x4 rIn4) (View.ld x5 rIn5) (View.ld x6 rIn6)⟩]

/-- The one store tiles the buffer, so it covers it. -/
theorem cover7 (p0 : Vec F S1x16x128x128 .f32) (y : S1x16x128x128.Idx) :
    ∃ pc ∈ ([⟨rOut, p0⟩] : List (View.Piece (Elt F) S1x16x128x128 .f32)), y ∈ pc.1.set :=
  View.cover_of_tiled [⟨rOut, p0⟩] S1x16x128x128.size (by rfl) y

/-! ## The proof data -/

/-- The proof data of the pipeline on core `c`: the arrays as the region finds them; after the body at point `t`
    each input's buffer at its block and the output's at `out7` of the input blocks; the invariant the scoped
    rest and the generator register, untouched; nothing owed; the two windows on the converted activations
    hold a half of that array each, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-! ## The contents after the host operations that follow the region -/

/-- Core `c`'s buffer contents when the region is left: as it found them, but for the output array, which holds
    what the write-backs of all the points left there. -/
def Wexit (c : Dev nD) : Valuation τ sig (Elt F) :=
  Function.update (V0 m c) (Proc.devRef .tc main_v12) ((dats m 0 c).arrAt 7 cfg0.N)

/-- Core `c`'s buffer contents at the end of @main: after the slice and the reshape that follow the region. -/
def VT (c : Dev nD) (b : Ref sig .tc) : Buf (Elt F) ((c : Thread nD τ).loc b) :=
  StableHlo.after hostOps1 (Wexit m c) (Proc.devRef .tc b)

/-- The grid point of batch `b` and row tile `it`: the grid is walked batch-major. -/
def pt (b : Fin 4) (it : Fin 8) : Fin cfg0.N := ⟨8 * b.val + it.val, by rw [show cfg0.N = 32 from N_0]; omega⟩

/-! ## The body obligation's two sides, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

end Cert.KernelIdeal.Hand

end
-- ==== Proof.KI.Body.lean ====
/- The body obligation of the kernel region, for any float instance: the body loads its seven input blocks whole,
   loads the output buffer (a value it never uses) and stores the whole output block once. -/
import proofs.«130901_j33998961115715_1_alg».proof.Proof.Gen.KernelIdeal.Launch
import proofs.«130901_j33998961115715_1_alg».proof.Proof.Gen.KernelIdeal.Skeleton
import proofs.«130901_j33998961115715_1_alg».proof.Proof.Gen.KernelIdeal.Points
import proofs.«130901_j33998961115715_1_alg».proof.Proof.KI.Data
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, the inputs' at read contents `xW` and the output's at anything, runs to
    the continuation holding the inputs' as they were and the output's at `out7` of the inputs'. -/
theorem sound_kernel (c : Dev nD) (E : Set ℕ) (i : grid0.Coords) (arg2 : Memref sig .tc .vmem S1x16x768 .bf16) (harg2 : arg2.IsWhole) (arg3 : Memref sig .tc .vmem S1x128x768 .bf16) (harg3 : arg3.IsWhole) (arg4 : Memref sig .tc .vmem S768x2304 .bf16) (harg4 : arg4.IsWhole) (arg5 : Memref sig .tc .vmem S768x2304 .bf16) (harg5 : arg5.IsWhole) (arg6 : Memref sig .tc .vmem S2304 .f32) (harg6 : arg6.IsWhole) (arg7 : Memref sig .tc .vmem S2304x128 .bf16) (harg7 : arg7.IsWhole) (arg8 : Memref sig .tc .vmem S128 .f32) (harg8 : arg8.IsWhole) (arg9 : Memref sig .tc .vmem S1x16x128x128 .f32) (harg9 : arg9.IsWhole)
    (x0 : Vec F S1x16x768 .bf16) (x1 : Vec F S1x128x768 .bf16) (x2 : Vec F S768x2304 .bf16) (x3 : Vec F S768x2304 .bf16) (x4 : Vec F S2304 .f32) (x5 : Vec F S2304x128 .bf16) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ owns (c : Thread nD τ) arg9 fullShare (out7 x0 x1 x2 x3 x4 x5 x6)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The body obligation, at a generic point -/

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/- The run of the whole program, for any float instance: the host operations before the region, the region under the
   pipeline's rule with the two windows on the converted activations each holding half of that array, and the slice
   and reshape after it. Every weakly fair execution terminates; the pipeline's arrays end at what the proof data
   computes and every other unscoped buffer at its contents after the last two host operations. -/
import proofs.«130901_j33998961115715_1_alg».proof.Proof.Gen.KernelIdeal.Launch
import proofs.«130901_j33998961115715_1_alg».proof.Proof.Gen.KernelIdeal.Skeleton
import proofs.«130901_j33998961115715_1_alg».proof.Proof.Gen.KernelIdeal.Points
import proofs.«130901_j33998961115715_1_alg».proof.Proof.KI.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends in: every array of the pipeline at what the library computes from the proof data, every other
    unscoped buffer at its contents after the host operations that follow the region. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = VT m c b

/-! ## The arrays at the region's two ends -/

/-- The pipeline's arrays, window by window, each a whole buffer at the window's share. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v4) ↦{fullShare.left} G 0) ∗ (((c.tc : Thread nD τ).loc main_v4) ↦{fullShare.right} G 1)
          ∗ (((c.tc : Thread nD τ).loc main_v1) ↦{fullShare} G 2) ∗ (((c.tc : Thread nD τ).loc main_v3) ↦{fullShare} G 3)
          ∗ (((c.tc : Thread nD τ).loc main_arg2) ↦{fullShare} G 4) ∗ (((c.tc : Thread nD τ).loc main_v8) ↦{fullShare} G 5)
          ∗ (((c.tc : Thread nD τ).loc main_v11) ↦{fullShare} G 6) ∗ (((c.tc : Thread nD τ).loc main_v12) ↦{fullShare} G 7)) := by
  have h : ((dats m 0 c).arrays G : sProp 𝕄)
      = bigSep Finset.univ fun w : Fin cfg0.W => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]
  rfl

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c.tc : Thread nD τ).loc main_v4) ↦{fullShare} W main_v4) ∗ (((c.tc : Thread nD τ).loc main_v1) ↦{fullShare} W main_v1)
          ∗ (((c.tc : Thread nD τ).loc main_v3) ↦{fullShare} W main_v3) ∗ (((c.tc : Thread nD τ).loc main_arg2) ↦{fullShare} W main_arg2)
          ∗ (((c.tc : Thread nD τ).loc main_v8) ↦{fullShare} W main_v8) ∗ (((c.tc : Thread nD τ).loc main_v11) ↦{fullShare} W main_v11)
          ∗ (((c.tc : Thread nD τ).loc main_v12) ↦{fullShare} W main_v12)) :=
  bigSep_eq_bigSepL_of_eq [main_v4, main_v1, main_v3, main_arg2, main_v8, main_v11, main_v12] (by decide) (by decide) _

/-- At the region's entry: the buffers behind the windows' arrays, each whole, make the proof data's arrays, the
    converted activations dealt in halves to the two windows that read them. -/
theorem hsplit (c : Dev nD) : (Pipeline.arrBufs spec0 c (V m c) : sProp 𝕄) ⊢ (dats m 0 c).arrays ((dats m 0 c).arrAt · 0) := by
  have e : (fun w => (dats m 0 c).arrAt w 0) = fun w => V m c (Pipeline.arrRef spec0 w) :=
    funext fun w => (show (dats m 0 c).arrAt w 0 = (dats m 0 c).A w from rfl).trans (A_eq m c w)
  rw [e, arrays_eq, arrBufs_eq]
  iintro ⟨H4, H1, H3, Ha2, H8, H11, H12⟩
  ihave H4' := (pointsTo_share (PosShare.mem_left_op_right fullShare)).1 $$ H4
  icases H4' with ⟨H4l, H4r⟩
  isplitl [H4l]; · iexact H4l
  isplitl [H4r]; · iexact H4r
  isplitl [H1]; · iexact H1
  isplitl [H3]; · iexact H3
  isplitl [Ha2]; · iexact Ha2
  isplitl [H8]; · iexact H8
  isplitl [H11]; · iexact H11
  iexact H12

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The contents at the two ends of the host operations after the region -/

theorem Wexit_out (c : Dev nD) : Wexit m c (Proc.devRef .tc main_v12) = (dats m 0 c).arrAt 7 cfg0.N := by
  unfold Wexit; exact Function.update_self _ _ _

theorem Wexit_of_ne (c : Dev nD) (b : Ref sig .tc) (h : b ≠ main_v12) : Wexit m c (Proc.devRef .tc b) = V m c b := by
  unfold Wexit; exact Function.update_of_ne (StableHlo.devRef_ne_of_ne h) _ _

/-- A buffer the last two host operations do not write, other than the output array, ends as the region found it. -/
theorem VT_of_ne (c : Dev nD) (b : Ref sig .tc) (h12 : b ≠ main_v12) (h13 : b ≠ main_v13) (h14 : b ≠ main_v14) : VT m c b = V m c b := by
  unfold VT
  rw [StableHlo.after_of_forall_not_mem _ _ (fun op hop => ?_), Wexit_of_ne m c b h12]
  simp only [hostOps1, List.mem_cons, List.mem_nil_iff, or_false] at hop
  rcases hop with rfl | rfl
  · rw [StableHlo.unary_writes, Finset.mem_singleton]; exact StableHlo.devRef_ne_of_ne h13
  · rw [StableHlo.reshape_writes, Finset.mem_singleton]; exact StableHlo.devRef_ne_of_ne h14

/-- The output array is not written by them either. -/
theorem after_tail_out (c : Dev nD) : StableHlo.after hostOps1 (Wexit m c) (Proc.devRef .tc main_v12) = (dats m 0 c).arrAt 7 cfg0.N := by
  rw [StableHlo.after_of_forall_not_mem _ _ (fun op hop => ?_), Wexit_out]
  simp only [hostOps1, List.mem_cons, List.mem_nil_iff, or_false] at hop
  rcases hop with rfl | rfl
  · rw [StableHlo.unary_writes, Finset.mem_singleton]; exact StableHlo.devRef_ne_of_ne (by decide)
  · rw [StableHlo.reshape_writes, Finset.mem_singleton]; exact StableHlo.devRef_ne_of_ne (by decide)

/-- The three buffers the last two host operations touch. -/
abbrev tailS : Finset (DevRef τ sig) := {Proc.devRef .tc main_v12, Proc.devRef .tc main_v13, Proc.devRef .tc main_v14}

theorem held_tail (c : Dev nD) (W : Valuation τ sig (Elt F)) :
    (StableHlo.held (c.tc : Thread nD τ) tailS W : sProp 𝕄)
      = iprop((((c.tc : Thread nD τ).loc main_v12) ↦{fullShare} W (Proc.devRef .tc main_v12))
          ∗ (((c.tc : Thread nD τ).loc main_v13) ↦{fullShare} W (Proc.devRef .tc main_v13))
          ∗ (((c.tc : Thread nD τ).loc main_v14) ↦{fullShare} W (Proc.devRef .tc main_v14))) := by
  unfold StableHlo.held tailS
  rw [bigSep_insert (by
        simp only [Finset.mem_insert, Finset.mem_singleton, not_or]
        exact ⟨StableHlo.devRef_ne_of_ne (by decide), StableHlo.devRef_ne_of_ne (by decide)⟩),
    bigSep_insert (by rw [Finset.mem_singleton]; exact StableHlo.devRef_ne_of_ne (by decide)), bigSep_singleton]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.unary_bufs]
    exact Finset.insert_subset_insert _ (Finset.singleton_subset_iff.mpr (Finset.mem_insert_self _ _))
  · rw [StableHlo.reshape_bufs]
    exact Finset.subset_insert _ _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The host operations after the region: from the region's exit — the boundary, the arrays at their final contents, the
    bypassing buffers as the region found them — the slice and the reshape run within the output array and their two
    result buffers, and hand back the arrays unchanged and the bypassing buffers at their final contents. -/
theorem htail (c : Dev nD) (Q' : PUnit → sProp 𝕄) :
    iprop((iprop((dats m 0 c).arrays ((dats m 0 c).arrAt · cfg0.N) ∗ Pipeline.unscopedRestP Pipeline.Prefetch.none spec0 c (VT m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_eq,
    VT_of_ne m c main_arg0 (by decide) (by decide) (by decide),
    VT_of_ne m c main_arg1 (by decide) (by decide) (by decide),
    VT_of_ne m c main_arg3 (by decide) (by decide) (by decide),
    VT_of_ne m c main_arg4 (by decide) (by decide) (by decide),
    VT_of_ne m c main_v0 (by decide) (by decide) (by decide),
    VT_of_ne m c main_v2 (by decide) (by decide) (by decide),
    VT_of_ne m c main_cst (by decide) (by decide) (by decide),
    VT_of_ne m c main_v5 (by decide) (by decide) (by decide),
    VT_of_ne m c main_v6 (by decide) (by decide) (by decide),
    VT_of_ne m c main_c (by decide) (by decide) (by decide),
    VT_of_ne m c main_v7 (by decide) (by decide) (by decide),
    VT_of_ne m c main_cst_0 (by decide) (by decide) (by decide),
    VT_of_ne m c main_v9 (by decide) (by decide) (by decide),
    VT_of_ne m c main_c_1 (by decide) (by decide) (by decide),
    VT_of_ne m c main_v10 (by decide) (by decide) (by decide)]
  iintro ⟨Hk, Hb, ⟨A0, A1, A2, A3, A4, A5, A6, A7⟩, ⟨R0, R1, R3, R4, Rv0, Rv2, Rcst, Rv5, Rv6, Rc, Rv7, Rcst0, Rv9, Rc1, Rv10, Rv13, Rv14⟩⟩
  have hseq := Pipeline.wp_seqs_then (K := Q') (pcfgs (F := F)) defs₀ Variants.none c tailS [] [hostOps1] tail_sub tail_fresh (Wexit m c)
  rw [held_tail, held_tail, Wexit_out, Wexit_of_ne m c main_v13 (by decide), Wexit_of_ne m c main_v14 (by decide)] at hseq
  simp only [List.flatten_cons, List.flatten_nil, List.append_nil, List.map_cons, List.map_nil] at hseq
  rw [after_tail_out, Pipeline.chain_nil, wp_pure] at hseq
  iapply hseq $$ [Hb A7 Rv13 Rv14]
  · isplitl [Hb]; · iexact Hb
    isplitl [A7]; · iexact A7
    isplitl [Rv13]; · iexact Rv13
    iexact Rv14
  iintro ⟨Hb, A7, Rv13, Rv14⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R3]; · iexact R3
  isplitl [R4]; · iexact R4
  isplitl [Rv0]; · iexact Rv0
  isplitl [Rv2]; · iexact Rv2
  isplitl [Rcst]; · iexact Rcst
  isplitl [Rv5]; · iexact Rv5
  isplitl [Rv6]; · iexact Rv6
  isplitl [Rc]; · iexact Rc
  isplitl [Rv7]; · iexact Rv7
  isplitl [Rcst0]; · iexact Rcst0
  isplitl [Rv9]; · iexact Rv9
  isplitl [Rc1]; · iexact Rc1
  isplitl [Rv10]; · iexact Rv10
  isplitl [Rv13]; · iexact Rv13
  iexact Rv14

-- the launch theorem's implicit arguments are found by unifying its conclusion with this one, which takes unfolding
-- plain definitions in a metavariable's type
set_option backward.isDefEq.respectTransparency.types false in
theorem run_main : θ_run defs (onTc (τ := τ) (main (F := F))) ⟨m, fun _ => 0, ρ⟩ (RunPost m) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) cellOf_inj)
          (Pipeline.launchToks (Pipeline.pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (VT m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = VT m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (VT m c) s')
      isplitl [HU] <;> iassumption)
    (hQ := fun s h c => ⟨(h c).1, Pipeline.rest_of_restP Pipeline.Prefetch.none spec0 (fun k => k.elim0) c (VT m c) s (fun k => k.elim0) (h c).2.1 (h c).2.2⟩)

/-- The result buffer ends at its contents after the last host operation, and the arguments as they were. -/
theorem run_value : θ_run defs (onTc (τ := τ) (main (F := F))) ⟨m, fun _ => 0, ρ⟩ (fun r => ∀ c : Dev nD,
      r.2.mem ((c.tc : Thread nD τ).loc main_v14) = VT m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).2 main_v14 (Pipeline.mem_restRefs_of main_v14 rfl (by decide)),
      ((h c).2 main_arg0 (Pipeline.mem_restRefs_of main_arg0 rfl (by decide))).trans
        ((VT_of_ne m c main_arg0 (by decide) (by decide) (by decide)).trans (V_main_arg0 m c)),
      ((h c).2 main_arg1 (Pipeline.mem_restRefs_of main_arg1 rfl (by decide))).trans
        ((VT_of_ne m c main_arg1 (by decide) (by decide) (by decide)).trans (V_main_arg1 m c)),
      ((h c).1 4).trans (((dats m 0 c).arrAt_in 4 rfl _).trans ((A_eq m c 4).trans (V_main_arg2 m c))),
      ((h c).2 main_arg3 (Pipeline.mem_restRefs_of main_arg3 rfl (by decide))).trans
        ((VT_of_ne m c main_arg3 (by decide) (by decide) (by decide)).trans (V_main_arg3 m c)),
      ((h c).2 main_arg4 (Pipeline.mem_restRefs_of main_arg4 rfl (by decide))).trans
        ((VT_of_ne m c main_arg4 (by decide) (by decide) (by decide)).trans (V_main_arg4 m c))⟩) (run_main m ρ)

/-- The frame: the program runs to its end and its argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

end Cert.KernelIdeal.Hand

end
-- ==== Proof.KI.Value.lean ====
/- From blocks to the array: the output array after the run, read at an index, is what the grid point covering that
   index stored there. The grid has a point per batch and tile of sixteen rows; the point of batch b and tile it
   writes rows 16·it … 16·it+15 of batch b, all 128 columns and all 128 lanes. -/
import proofs.«130901_j33998961115715_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

variable {F : FTy → Type} [FloatOps F]
variable (m : (ℓ : Loc nD τ sig) → Buf (Elt F) ℓ)

/-- The output window's block index at a grid point, on each axis: the batch, the tile of sixteen rows, and zero
    on the last two axes (the block spans all columns and all lanes). -/
theorem index7 : ∀ t : Fin cfg0.N, win0_7.index t (0 : Fin 4) = t.val / 8 ∧ win0_7.index t (1 : Fin 4) = t.val % 8
    ∧ win0_7.index t (2 : Fin 4) = 0 ∧ win0_7.index t (3 : Fin 4) = 0 :=
  (by decide +kernel : ∀ t : Fin grid0.N, win0_7.index t (0 : Fin 4) = t.val / 8 ∧ win0_7.index t (1 : Fin 4) = t.val % 8
    ∧ win0_7.index t (2 : Fin 4) = 0 ∧ win0_7.index t (3 : Fin 4) = 0)

/-- Distinct grid points have distinct block indices: the pair (t / 8, t % 8) determines t. -/
theorem index7_inj (t t' : Fin cfg0.N) (h : win0_7.index t = win0_7.index t') : t = t' := by
  obtain ⟨p0, p1, -, -⟩ := index7 t
  obtain ⟨q0, q1, -, -⟩ := index7 t'
  have h0 : win0_7.index t (0 : Fin 4) = win0_7.index t' (0 : Fin 4) := congrFun h 0
  have h1 : win0_7.index t (1 : Fin 4) = win0_7.index t' (1 : Fin 4) := congrFun h 1
  apply Fin.ext
  omega

/-- So the blocks two different points write back share no index of the array. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (index7_inj t t' h)

/-- Where an element of point `pt b it`'s block sits in the array: batch `b`, row `16·it + a`, the same column and lane. -/
theorem emb7 (b : Fin 4) (it : Fin 8) (a : Fin 16) (j : Fin 128) (o : Fin 128) :
    ((cfg0.win 7).blk (pt b it)).view.emb (ix4 0 a j o) = ix4 b (⟨16 * it.val + a.val, by omega⟩ : Fin 128) j o := by
  obtain ⟨p0, p1, p2, p3⟩ := index7 (pt b it)
  have hv : (pt b it).val = 8 * b.val + it.val := rfl
  funext x; apply Fin.ext
  match x with
  | ⟨0, _⟩ => show win0_7.index (pt b it) (0 : Fin 4) * 1 + 1 * 0 = b.val; rw [p0, hv]; omega
  | ⟨1, _⟩ => show win0_7.index (pt b it) (1 : Fin 4) * 16 + 1 * a.val = 16 * it.val + a.val; rw [p1, hv]; omega
  | ⟨2, _⟩ => show win0_7.index (pt b it) (2 : Fin 4) * 128 + 1 * j.val = j.val; rw [p2]; omega
  | ⟨3, _⟩ => show win0_7.index (pt b it) (3 : Fin 4) * 128 + 1 * o.val = o.val; rw [p3]; omega

/-- The output array after the last point, at row `16·it + a` of batch `b`: what point `pt b it` left at row `a` of its block. -/
theorem arrAt7_apply (c : Dev nD) (b : Fin 4) (it : Fin 8) (a : Fin 16) (j : Fin 128) (o : Fin 128) :
    (dats m 0 c).arrAt 7 cfg0.N (ix4 b (⟨16 * it.val + a.val, by omega⟩ : Fin 128) j o)
      = out7 (iblk m c 0 (pt b it)) (iblk m c 1 (pt b it)) (iblk m c 2 (pt b it)) (iblk m c 3 (pt b it)) (iblk m c 4 (pt b it)) (iblk m c 5 (pt b it)) (iblk m c 6 (pt b it)) (ix4 0 a j o) := by
  have h := (dats m 0 c).arrAt_emb_eq_flushed 7 disjoint7 (pt b it) (flush0_7 _) (ix4 0 a j o)
  rw [emb7] at h
  rw [h]
  exact congrFun (after7 m c (pt b it)) (ix4 0 a j o)

end Cert.KernelIdeal.Hand

end
-- ==== Proof.KI.PayAt.lean ====
/- The body's arithmetic read at an index of the output block, over the extended reals: two matrix products of the
   activations with the two halves of the first weight matrix, added row against column with the first bias, the
   maximum with zero, a third matrix product with the padded second weight matrix, and the padded second bias. -/
import proofs.«130901_j33998961115715_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-! ## The whole-buffer rectangles -/

/-- Every rectangle of the body is its whole buffer, so the block it stores is the payload of the blocks it loads. -/
private theorem out7_eq (x0 : Vec Ideal S1x16x768 .bf16) (x1 : Vec Ideal S1x128x768 .bf16) (x2 : Vec Ideal S768x2304 .bf16) (x3 : Vec Ideal S768x2304 .bf16) (x4 : Vec Ideal S2304 .f32) (x5 : Vec Ideal S2304x128 .bf16) (x6 : Vec Ideal S128 .f32) :
    out7 (F := Ideal) x0 x1 x2 x3 x4 x5 x6 = k0_pay1 (F := Ideal) x0 x1 x2 x3 x4 x5 x6 := by
  unfold out7
  rw [View.canon_unit_zero (S := S1x16x128x128) (funext fun a => by fin_cases a <;> rfl),
    View.ld_unit_zero (S := S1x16x768) (funext fun a => by fin_cases a <;> rfl),
    View.ld_unit_zero (S := S1x128x768) (funext fun a => by fin_cases a <;> rfl),
    View.ld_unit_zero (S := S768x2304) (funext fun a => by fin_cases a <;> rfl),
    View.ld_unit_zero (S := S768x2304) (funext fun a => by fin_cases a <;> rfl),
    View.ld_unit_zero (S := S2304) (funext fun a => by fin_cases a <;> rfl),
    View.ld_unit_zero (S := S2304x128) (funext fun a => by fin_cases a <;> rfl),
    View.ld_unit_zero (S := S128) (funext fun a => by fin_cases a <;> rfl)]

/-! ## The three matrix products' operand indices -/

/-- The left operand's row is the result's row. -/
private theorem lhs_mm1_0 (i : S16x2304.Idx) (q : dot_S16x768_S768x2304_S16x2304_1_0_0_1_n_n.contr.Idx) :
    (dot_S16x768_S768x2304_S16x2304_1_0_0_1_n_n.lhsIdx i q 0).val = (i 0).val := by
  unfold DotDims.lhsIdx
  rw [dif_neg (show ¬(0 : Fin S16x768.rank) ∈ dot_S16x768_S768x2304_S16x2304_1_0_0_1_n_n.lhsBatch by decide), dif_pos (show (0 : Fin S16x768.rank) ∈ dot_S16x768_S768x2304_S16x2304_1_0_0_1_n_n.lhsNonContracting by decide)]
  rfl
/-- The left operand's column is the contraction position. -/
private theorem lhs_mm1_1 (i : S16x2304.Idx) (q : dot_S16x768_S768x2304_S16x2304_1_0_0_1_n_n.contr.Idx) :
    (dot_S16x768_S768x2304_S16x2304_1_0_0_1_n_n.lhsIdx i q 1).val = (q ⟨0, by decide⟩).val :=
  dot_S16x768_S768x2304_S16x2304_1_0_0_1_n_n.lhsIdx_val_of_single rfl i q
/-- The right operand's row is the contraction position. -/
private theorem rhs_mm1_0 (i : S16x2304.Idx) (q : dot_S16x768_S768x2304_S16x2304_1_0_0_1_n_n.contr.Idx) :
    (dot_S16x768_S768x2304_S16x2304_1_0_0_1_n_n.rhsIdx i q 0).val = (q ⟨0, by decide⟩).val :=
  dot_S16x768_S768x2304_S16x2304_1_0_0_1_n_n.rhsIdx_val_of_single rfl i q
/-- The right operand's column is the result's column. -/
private theorem rhs_mm1_1 (i : S16x2304.Idx) (q : dot_S16x768_S768x2304_S16x2304_1_0_0_1_n_n.contr.Idx) :
    (dot_S16x768_S768x2304_S16x2304_1_0_0_1_n_n.rhsIdx i q 1).val = (i 1).val := by
  unfold DotDims.rhsIdx
  rw [dif_neg (show ¬(1 : Fin S768x2304.rank) ∈ dot_S16x768_S768x2304_S16x2304_1_0_0_1_n_n.rhsBatch by decide), dif_pos (show (1 : Fin S768x2304.rank) ∈ dot_S16x768_S768x2304_S16x2304_1_0_0_1_n_n.rhsNonContracting by decide)]
  rfl

/-- The left operand's row is the result's row. -/
private theorem lhs_mm2_0 (i : S128x2304.Idx) (q : dot_S128x768_S768x2304_S128x2304_1_0_0_1_n_n.contr.Idx) :
    (dot_S128x768_S768x2304_S128x2304_1_0_0_1_n_n.lhsIdx i q 0).val = (i 0).val := by
  unfold DotDims.lhsIdx
  rw [dif_neg (show ¬(0 : Fin S128x768.rank) ∈ dot_S128x768_S768x2304_S128x2304_1_0_0_1_n_n.lhsBatch by decide), dif_pos (show (0 : Fin S128x768.rank) ∈ dot_S128x768_S768x2304_S128x2304_1_0_0_1_n_n.lhsNonContracting by decide)]
  rfl
/-- The left operand's column is the contraction position. -/
private theorem lhs_mm2_1 (i : S128x2304.Idx) (q : dot_S128x768_S768x2304_S128x2304_1_0_0_1_n_n.contr.Idx) :
    (dot_S128x768_S768x2304_S128x2304_1_0_0_1_n_n.lhsIdx i q 1).val = (q ⟨0, by decide⟩).val :=
  dot_S128x768_S768x2304_S128x2304_1_0_0_1_n_n.lhsIdx_val_of_single rfl i q
/-- The right operand's row is the contraction position. -/
private theorem rhs_mm2_0 (i : S128x2304.Idx) (q : dot_S128x768_S768x2304_S128x2304_1_0_0_1_n_n.contr.Idx) :
    (dot_S128x768_S768x2304_S128x2304_1_0_0_1_n_n.rhsIdx i q 0).val = (q ⟨0, by decide⟩).val :=
  dot_S128x768_S768x2304_S128x2304_1_0_0_1_n_n.rhsIdx_val_of_single rfl i q
/-- The right operand's column is the result's column. -/
private theorem rhs_mm2_1 (i : S128x2304.Idx) (q : dot_S128x768_S768x2304_S128x2304_1_0_0_1_n_n.contr.Idx) :
    (dot_S128x768_S768x2304_S128x2304_1_0_0_1_n_n.rhsIdx i q 1).val = (i 1).val := by
  unfold DotDims.rhsIdx
  rw [dif_neg (show ¬(1 : Fin S768x2304.rank) ∈ dot_S128x768_S768x2304_S128x2304_1_0_0_1_n_n.rhsBatch by decide), dif_pos (show (1 : Fin S768x2304.rank) ∈ dot_S128x768_S768x2304_S128x2304_1_0_0_1_n_n.rhsNonContracting by decide)]
  rfl

/-- The left operand's row is the result's row. -/
private theorem lhs_mm3_0 (i : S2048x128.Idx) (q : dot_S2048x2304_S2304x128_S2048x128_1_0_0_1_n_n.contr.Idx) :
    (dot_S2048x2304_S2304x128_S2048x128_1_0_0_1_n_n.lhsIdx i q 0).val = (i 0).val := by
  unfold DotDims.lhsIdx
  rw [dif_neg (show ¬(0 : Fin S2048x2304.rank) ∈ dot_S2048x2304_S2304x128_S2048x128_1_0_0_1_n_n.lhsBatch by decide), dif_pos (show (0 : Fin S2048x2304.rank) ∈ dot_S2048x2304_S2304x128_S2048x128_1_0_0_1_n_n.lhsNonContracting by decide)]
  rfl
/-- The left operand's column is the contraction position. -/
private theorem lhs_mm3_1 (i : S2048x128.Idx) (q : dot_S2048x2304_S2304x128_S2048x128_1_0_0_1_n_n.contr.Idx) :
    (dot_S2048x2304_S2304x128_S2048x128_1_0_0_1_n_n.lhsIdx i q 1).val = (q ⟨0, by decide⟩).val :=
  dot_S2048x2304_S2304x128_S2048x128_1_0_0_1_n_n.lhsIdx_val_of_single rfl i q
/-- The right operand's row is the contraction position. -/
private theorem rhs_mm3_0 (i : S2048x128.Idx) (q : dot_S2048x2304_S2304x128_S2048x128_1_0_0_1_n_n.contr.Idx) :
    (dot_S2048x2304_S2304x128_S2048x128_1_0_0_1_n_n.rhsIdx i q 0).val = (q ⟨0, by decide⟩).val :=
  dot_S2048x2304_S2304x128_S2048x128_1_0_0_1_n_n.rhsIdx_val_of_single rfl i q
/-- The right operand's column is the result's column. -/
private theorem rhs_mm3_1 (i : S2048x128.Idx) (q : dot_S2048x2304_S2304x128_S2048x128_1_0_0_1_n_n.contr.Idx) :
    (dot_S2048x2304_S2304x128_S2048x128_1_0_0_1_n_n.rhsIdx i q 1).val = (i 1).val := by
  unfold DotDims.rhsIdx
  rw [dif_neg (show ¬(1 : Fin S2304x128.rank) ∈ dot_S2048x2304_S2304x128_S2048x128_1_0_0_1_n_n.rhsBatch by decide), dif_pos (show (1 : Fin S2304x128.rank) ∈ dot_S2048x2304_S2304x128_S2048x128_1_0_0_1_n_n.rhsNonContracting by decide)]
  rfl

/-! ## Each matrix product at an index -/

/-- The head's product: entry (a, k) sums row a of the left operand against column k of the right. -/
private theorem mm1_apply (l : FVec Ideal S16x768 .bf16) (r : FVec Ideal S768x2304 .bf16) (a : Fin 16) (k : Fin 2304) :
    matmul (F := Ideal) dot_S16x768_S768x2304_S16x2304_1_0_0_1_n_n none l r (constant (F := Ideal) S16x2304 .f32 0x00000000#32) (ix2 a k)
      = ∑ h : Fin 768, (l (ix2 a h) : EReal) * (r (ix2 h k) : EReal) := by
  simp only [matmul]
  rw [Ideal.matmul_constant_zero_apply, ← Equiv.sum_comp (ValueIdx.contrEquiv1 dot_S16x768_S768x2304_S16x2304_1_0_0_1_n_n 768 rfl rfl).symm]
  refine Finset.sum_congr rfl fun h _ => ?_
  have hk := ValueIdx.contrEquiv1_symm_val dot_S16x768_S768x2304_S16x2304_1_0_0_1_n_n 768 rfl rfl h
  have el : dot_S16x768_S768x2304_S16x2304_1_0_0_1_n_n.lhsIdx (ix2 a k) ((ValueIdx.contrEquiv1 dot_S16x768_S768x2304_S16x2304_1_0_0_1_n_n 768 rfl rfl).symm h) = ix2 a h := funext fun c => Fin.ext (by
    match c with
    | ⟨0, _⟩ => exact lhs_mm1_0 _ _
    | ⟨1, _⟩ => exact (lhs_mm1_1 _ _).trans hk)
  have er : dot_S16x768_S768x2304_S16x2304_1_0_0_1_n_n.rhsIdx (ix2 a k) ((ValueIdx.contrEquiv1 dot_S16x768_S768x2304_S16x2304_1_0_0_1_n_n 768 rfl rfl).symm h) = ix2 h k := funext fun c => Fin.ext (by
    match c with
    | ⟨0, _⟩ => exact (rhs_mm1_0 _ _).trans hk
    | ⟨1, _⟩ => exact rhs_mm1_1 _ _)
  rw [el, er]

/-- The tail's product: entry (a, k) sums row a of the left operand against column k of the right. -/
private theorem mm2_apply (l : FVec Ideal S128x768 .bf16) (r : FVec Ideal S768x2304 .bf16) (a : Fin 128) (k : Fin 2304) :
    matmul (F := Ideal) dot_S128x768_S768x2304_S128x2304_1_0_0_1_n_n none l r (constant (F := Ideal) S128x2304 .f32 0x00000000#32) (ix2 a k)
      = ∑ h : Fin 768, (l (ix2 a h) : EReal) * (r (ix2 h k) : EReal) := by
  simp only [matmul]
  rw [Ideal.matmul_constant_zero_apply, ← Equiv.sum_comp (ValueIdx.contrEquiv1 dot_S128x768_S768x2304_S128x2304_1_0_0_1_n_n 768 rfl rfl).symm]
  refine Finset.sum_congr rfl fun h _ => ?_
  have hk := ValueIdx.contrEquiv1_symm_val dot_S128x768_S768x2304_S128x2304_1_0_0_1_n_n 768 rfl rfl h
  have el : dot_S128x768_S768x2304_S128x2304_1_0_0_1_n_n.lhsIdx (ix2 a k) ((ValueIdx.contrEquiv1 dot_S128x768_S768x2304_S128x2304_1_0_0_1_n_n 768 rfl rfl).symm h) = ix2 a h := funext fun c => Fin.ext (by
    match c with
    | ⟨0, _⟩ => exact lhs_mm2_0 _ _
    | ⟨1, _⟩ => exact (lhs_mm2_1 _ _).trans hk)
  have er : dot_S128x768_S768x2304_S128x2304_1_0_0_1_n_n.rhsIdx (ix2 a k) ((ValueIdx.contrEquiv1 dot_S128x768_S768x2304_S128x2304_1_0_0_1_n_n 768 rfl rfl).symm h) = ix2 h k := funext fun c => Fin.ext (by
    match c with
    | ⟨0, _⟩ => exact (rhs_mm2_0 _ _).trans hk
    | ⟨1, _⟩ => exact rhs_mm2_1 _ _)
  rw [el, er]

/-- The output product: entry (a, k) sums row a of the flattened hidden block against column k of the second weight matrix. -/
private theorem mm3_apply (l : FVec Ideal S2048x2304 .bf16) (r : FVec Ideal S2304x128 .bf16) (a : Fin 2048) (k : Fin 128) :
    matmul (F := Ideal) dot_S2048x2304_S2304x128_S2048x128_1_0_0_1_n_n none l r (constant (F := Ideal) S2048x128 .f32 0x00000000#32) (ix2 a k)
      = ∑ h : Fin 2304, (l (ix2 a h) : EReal) * (r (ix2 h k) : EReal) := by
  simp only [matmul]
  rw [Ideal.matmul_constant_zero_apply, ← Equiv.sum_comp (ValueIdx.contrEquiv1 dot_S2048x2304_S2304x128_S2048x128_1_0_0_1_n_n 2304 rfl rfl).symm]
  refine Finset.sum_congr rfl fun h _ => ?_
  have hk := ValueIdx.contrEquiv1_symm_val dot_S2048x2304_S2304x128_S2048x128_1_0_0_1_n_n 2304 rfl rfl h
  have el : dot_S2048x2304_S2304x128_S2048x128_1_0_0_1_n_n.lhsIdx (ix2 a k) ((ValueIdx.contrEquiv1 dot_S2048x2304_S2304x128_S2048x128_1_0_0_1_n_n 2304 rfl rfl).symm h) = ix2 a h := funext fun c => Fin.ext (by
    match c with
    | ⟨0, _⟩ => exact lhs_mm3_0 _ _
    | ⟨1, _⟩ => exact (lhs_mm3_1 _ _).trans hk)
  have er : dot_S2048x2304_S2304x128_S2048x128_1_0_0_1_n_n.rhsIdx (ix2 a k) ((ValueIdx.contrEquiv1 dot_S2048x2304_S2304x128_S2048x128_1_0_0_1_n_n 2304 rfl rfl).symm h) = ix2 h k := funext fun c => Fin.ext (by
    match c with
    | ⟨0, _⟩ => exact (rhs_mm3_0 _ _).trans hk
    | ⟨1, _⟩ => exact rhs_mm3_1 _ _)
  rw [el, er]

/-! ## The layout operations at explicit coordinates -/

/-- Row 128·a + j of the flattened [2048, ·] matrices: the position of (a, j) in a [16, 128, ·] block. -/
private abbrev row (a : Fin 16) (j : Fin 128) : Fin 2048 :=
  ⟨128 * a.val + j.val, by have ha := a.isLt; have hj := j.isLt; omega⟩

/-- Dropping the leading unit axis of a [1, n, m] block: entry (a, h) is entry (0, a, h). -/
private theorem drop3_apply {α : Type} {n m : Nat} (v : (⟨3, ![1, n, m]⟩ : Shape).Idx → α) (hc : (⟨3, ![1, n, m]⟩ : Shape).ShapeCasts ⟨2, ![n, m]⟩)
    (a : Fin n) (h : Fin m) : shapeCast (⟨2, ![n, m]⟩ : Shape) v hc (ix2 a h) = v (ix3 0 a h) := by
  refine shapeCast_apply v hc (ix2 a h) (ix3 0 a h) ?_
  rw [Shape.rowMajor_val_three, Shape.rowMajor_val_two]
  show ((0 : Nat) * n + a.val) * m + h.val = a.val * m + h.val
  rw [Nat.zero_mul, Nat.zero_add]

/-- Adding a middle unit axis to an [n, m] matrix: entry (a, 0, k) is entry (a, k). -/
private theorem mid3_apply {α : Type} {n m : Nat} (v : (⟨2, ![n, m]⟩ : Shape).Idx → α) (hc : (⟨2, ![n, m]⟩ : Shape).ShapeCasts ⟨3, ![n, 1, m]⟩)
    (a : Fin n) (k : Fin m) : shapeCast (⟨3, ![n, 1, m]⟩ : Shape) v hc (ix3 a 0 k) = v (ix2 a k) := by
  refine shapeCast_apply v hc (ix3 a 0 k) (ix2 a k) ?_
  rw [Shape.rowMajor_val_three, Shape.rowMajor_val_two]
  show a.val * m + k.val = (a.val * 1 + (0 : Nat)) * m + k.val
  rw [Nat.mul_one, Nat.add_zero]

/-- Adding a leading unit axis to an [n, m] matrix: entry (0, j, k) is entry (j, k). -/
private theorem lead3_apply {α : Type} {n m : Nat} (v : (⟨2, ![n, m]⟩ : Shape).Idx → α) (hc : (⟨2, ![n, m]⟩ : Shape).ShapeCasts ⟨3, ![1, n, m]⟩)
    (j : Fin n) (k : Fin m) : shapeCast (⟨3, ![1, n, m]⟩ : Shape) v hc (ix3 0 j k) = v (ix2 j k) := by
  refine shapeCast_apply v hc (ix3 0 j k) (ix2 j k) ?_
  rw [Shape.rowMajor_val_three, Shape.rowMajor_val_two]
  show j.val * m + k.val = ((0 : Nat) * n + j.val) * m + k.val
  rw [Nat.zero_mul, Nat.zero_add]

/-- A vector of length m viewed [1, 1, m]: entry (0, 0, k) is entry k. -/
private theorem vec3_apply {α : Type} {m : Nat} (v : (⟨1, ![m]⟩ : Shape).Idx → α) (hc : (⟨1, ![m]⟩ : Shape).ShapeCasts ⟨3, ![1, 1, m]⟩)
    (k : Fin m) : shapeCast (⟨3, ![1, 1, m]⟩ : Shape) v hc (ix3 0 0 k) = v (ix1 k) := by
  refine shapeCast_apply v hc (ix3 0 0 k) (ix1 k) ?_
  rw [Shape.rowMajor_val_three, Shape.rowMajor_val_one]
  show k.val = ((0 : Nat) * 1 + (0 : Nat)) * m + k.val
  omega

/-- A vector of length m viewed [1, m]: entry (0, o) is entry o. -/
private theorem vec2_apply {α : Type} {m : Nat} (v : (⟨1, ![m]⟩ : Shape).Idx → α) (hc : (⟨1, ![m]⟩ : Shape).ShapeCasts ⟨2, ![1, m]⟩)
    (o : Fin m) : shapeCast (⟨2, ![1, m]⟩ : Shape) v hc (ix2 0 o) = v (ix1 o) := by
  refine shapeCast_apply v hc (ix2 0 o) (ix1 o) ?_
  rw [Shape.rowMajor_val_two, Shape.rowMajor_val_one]
  show o.val = (0 : Nat) * m + o.val
  rw [Nat.zero_mul, Nat.zero_add]

/-- Flattening a [16, 128, 2304] block to [2048, 2304]: row 128·a + j, column k is entry (a, j, k). -/
private theorem flat_apply {α : Type} (v : S16x128x2304.Idx → α) (hc : S16x128x2304.ShapeCasts S2048x2304)
    (a : Fin 16) (j : Fin 128) (k : Fin 2304) : shapeCast S2048x2304 v hc (ix2 (row a j) k) = v (ix3 a j k) := by
  refine shapeCast_apply v hc (ix2 (row a j) k) (ix3 a j k) ?_
  rw [Shape.rowMajor_val_three, Shape.rowMajor_val_two]
  show (a.val * 128 + j.val) * 2304 + k.val = (128 * a.val + j.val) * 2304 + k.val
  omega

/-- Unflattening a [2048, 128] matrix to [16, 128, 128]: entry (a, j, o) is row 128·a + j, column o. -/
private theorem unflat_apply {α : Type} (v : S2048x128.Idx → α) (hc : S2048x128.ShapeCasts S16x128x128)
    (a : Fin 16) (j : Fin 128) (o : Fin 128) : shapeCast S16x128x128 v hc (ix3 a j o) = v (ix2 (row a j) o) := by
  refine shapeCast_apply v hc (ix3 a j o) (ix2 (row a j) o) ?_
  rw [Shape.rowMajor_val_three, Shape.rowMajor_val_two]
  show (128 * a.val + j.val) * 128 + o.val = (a.val * 128 + j.val) * 128 + o.val
  omega

/-- Adding the leading unit axis to a [16, 128, 128] block: entry (0, a, j, o) is entry (a, j, o). -/
private theorem lead4_apply {α : Type} (v : S16x128x128.Idx → α) (hc : S16x128x128.ShapeCasts S1x16x128x128)
    (a : Fin 16) (j : Fin 128) (o : Fin 128) : shapeCast S1x16x128x128 v hc (ix4 0 a j o) = v (ix3 a j o) := by
  refine shapeCast_apply v hc (ix4 0 a j o) (ix3 a j o) ?_
  rw [Shape.rowMajor_val_four, Shape.rowMajor_val_three]
  show (a.val * 128 + j.val) * 128 + o.val = ((((0 : Nat) * 16 + a.val) * 128 + j.val) * 128 + o.val)
  omega

/-- Spreading a [16, 1, 2304] block along the middle axis: entry (a, j, k) is entry (a, 0, k). -/
private theorem bcMid_apply {α : Type} (v : S16x1x2304.Idx → α) (hb : S16x1x2304.Broadcasts S16x128x2304)
    (a : Fin 16) (j : Fin 128) (k : Fin 2304) : broadcastTo S16x128x2304 v hb (ix3 a j k) = v (ix3 a 0 k) :=
  broadcastTo_apply v hb (ix3 a j k) (ix3 a 0 k) (fun c => match c with
    | ⟨0, _⟩ => by show a.val = if (16 : Nat) = 1 then 0 else a.val; rw [if_neg (by decide)]
    | ⟨1, _⟩ => by show (0 : Nat) = if (1 : Nat) = 1 then 0 else j.val; rw [if_pos rfl]
    | ⟨2, _⟩ => by show k.val = if (2304 : Nat) = 1 then 0 else k.val; rw [if_neg (by decide)])

/-- Spreading a [1, 128, 2304] block along the leading axis: entry (a, j, k) is entry (0, j, k). -/
private theorem bcLead_apply {α : Type} (v : S1x128x2304.Idx → α) (hb : S1x128x2304.Broadcasts S16x128x2304)
    (a : Fin 16) (j : Fin 128) (k : Fin 2304) : broadcastTo S16x128x2304 v hb (ix3 a j k) = v (ix3 0 j k) :=
  broadcastTo_apply v hb (ix3 a j k) (ix3 0 j k) (fun c => match c with
    | ⟨0, _⟩ => by show (0 : Nat) = if (1 : Nat) = 1 then 0 else a.val; rw [if_pos rfl]
    | ⟨1, _⟩ => by show j.val = if (128 : Nat) = 1 then 0 else j.val; rw [if_neg (by decide)]
    | ⟨2, _⟩ => by show k.val = if (2304 : Nat) = 1 then 0 else k.val; rw [if_neg (by decide)])

/-- Spreading a [1, 1, 2304] block along both leading axes: entry (a, j, k) is entry (0, 0, k). -/
private theorem bcBias_apply {α : Type} (v : S1x1x2304.Idx → α) (hb : S1x1x2304.Broadcasts S16x128x2304)
    (a : Fin 16) (j : Fin 128) (k : Fin 2304) : broadcastTo S16x128x2304 v hb (ix3 a j k) = v (ix3 0 0 k) :=
  broadcastTo_apply v hb (ix3 a j k) (ix3 0 0 k) (fun c => match c with
    | ⟨0, _⟩ => by show (0 : Nat) = if (1 : Nat) = 1 then 0 else a.val; rw [if_pos rfl]
    | ⟨1, _⟩ => by show (0 : Nat) = if (1 : Nat) = 1 then 0 else j.val; rw [if_pos rfl]
    | ⟨2, _⟩ => by show k.val = if (2304 : Nat) = 1 then 0 else k.val; rw [if_neg (by decide)])

/-- Spreading a [1, 128] row down the 2048 rows: entry (r, o) is entry (0, o). -/
private theorem bcRow_apply {α : Type} (v : S1x128.Idx → α) (hb : S1x128.Broadcasts S2048x128)
    (r : Fin 2048) (o : Fin 128) : broadcastTo S2048x128 v hb (ix2 r o) = v (ix2 0 o) :=
  broadcastTo_apply v hb (ix2 r o) (ix2 0 o) (fun c => match c with
    | ⟨0, _⟩ => by show (0 : Nat) = if (1 : Nat) = 1 then 0 else r.val; rw [if_pos rfl]
    | ⟨1, _⟩ => by show o.val = if (128 : Nat) = 1 then 0 else o.val; rw [if_neg (by decide)])

/-- Entry (a, j, o) of the block the body stores, from the seven blocks it loads. -/
theorem out7_apply (x0 : Vec Ideal S1x16x768 .bf16) (x1 : Vec Ideal S1x128x768 .bf16) (x2 : Vec Ideal S768x2304 .bf16) (x3 : Vec Ideal S768x2304 .bf16) (x4 : Vec Ideal S2304 .f32) (x5 : Vec Ideal S2304x128 .bf16) (x6 : Vec Ideal S128 .f32) (a : Fin 16) (j : Fin 128) (o : Fin 128) :
    out7 (F := Ideal) x0 x1 x2 x3 x4 x5 x6 (ix4 0 a j o)
      = ((∑ k : Fin 2304, max ((((∑ h : Fin 768, (x0 (ix3 0 a h) : EReal) * (x2 (ix2 h k) : EReal)) + (∑ h : Fin 768, (x1 (ix3 0 j h) : EReal) * (x3 (ix2 h k) : EReal))) + (x4 (ix1 k) : EReal))) (Ideal.ofBits .f32 0x00000000#32)
            * (x5 (ix2 k o) : EReal)) + (x6 (ix1 o) : EReal) : EReal) := by
  rw [out7_eq]
  unfold k0_pay1
  refine (lead4_apply _ _ a j o).trans ?_
  refine (unflat_apply _ _ a j o).trans ?_
  refine (addf_apply _ _ _).trans ?_
  refine congrArg₂ (· + ·) ?_ ?_
  · -- the third product, over the hidden block's entries
    refine (mm3_apply _ _ (row a j) o).trans ?_
    refine Finset.sum_congr rfl fun k _ => congrArg₂ (· * ·) ?_ (congrFun (shapeCast_self _ _) _)
    refine (truncf_apply (φ := .f32) (ψ := .bf16) _ (by decide) _).trans ?_
    refine (flat_apply _ _ a j k).trans ?_
    refine (maximumf_apply _ _ _).trans ?_
    refine congrArg₂ max ?_ rfl
    refine (addf_apply _ _ _).trans ?_
    refine congrArg₂ (· + ·) ?_ ?_
    · refine (addf_apply _ _ _).trans ?_
      refine congrArg₂ (· + ·) ?_ ?_
      · -- the head's row
        refine (bcMid_apply _ _ a j k).trans ?_
        refine (mid3_apply _ _ a k).trans ?_
        refine (mm1_apply _ _ a k).trans ?_
        exact Finset.sum_congr rfl fun h _ => congrArg₂ (· * ·) (drop3_apply _ _ a h) (congrFun (shapeCast_self _ _) _)
      · -- the tail's row
        refine (bcLead_apply _ _ a j k).trans ?_
        refine (lead3_apply _ _ j k).trans ?_
        refine (mm2_apply _ _ j k).trans ?_
        exact Finset.sum_congr rfl fun h _ => congrArg₂ (· * ·) (drop3_apply _ _ j h) (congrFun (shapeCast_self _ _) _)
    · -- the first bias
      refine (bcBias_apply _ _ a j k).trans ?_
      exact vec3_apply _ _ k
  · -- the second bias
    refine (bcRow_apply _ _ (row a j) o).trans ?_
    refine (vec2_apply _ _ o).trans ?_
    exact congrFun (shapeCast_self _ _) _

end Cert.KernelIdeal.Hand

end
-- ==== Proof.KI.Blocks.lean ====
/- The input blocks read at an index, over the extended reals, in terms of the program's arguments: the host
   operations before the region slice the first weight matrix in two, pad the second weight matrix and the second
   bias with zeros to 128 lanes, and convert to a narrower float format, which over the extended reals changes nothing. -/
import proofs.«130901_j33998961115715_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

variable (m : (ℓ : Loc nD τ sig) → Buf (Elt Ideal) ℓ)

/-- The index maps, decided once over the grid. -/
private theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## A scatter that overwrites, read at an index -/

section Overwrite
variable {ι β α : Type}

/-- A fold of steps none of which touches the element at `i` (the steps that do are those with `P`) leaves it as it was. -/
private theorem foldl_miss (step : (β → α) → ι → β → α) (i : β) (P : ι → Prop)
    (hmiss : ∀ r n, ¬ P n → step r n i = r i) :
    ∀ (l : List ι) (x : β → α), (∀ n ∈ l, ¬ P n) → (l.foldl step x) i = x i
  | [], x, _ => rfl
  | a :: l, x, h => by
    rw [List.foldl_cons, foldl_miss step i P hmiss l _ (fun n hn => h n (List.mem_cons_of_mem _ hn))]
    exact hmiss x a (h a List.mem_cons_self)

/-- A fold of steps of which those with `P` overwrite the element at `i` by `u n` and the others leave it: when some step
    has `P` and all that do write the value `v`, the element ends at `v`. -/
private theorem foldl_hit (step : (β → α) → ι → β → α) (i : β) (P : ι → Prop) (u : ι → α) (v : α)
    (hmiss : ∀ r n, ¬ P n → step r n i = r i) (hhit : ∀ r n, P n → step r n i = u n) :
    ∀ (l : List ι) (x : β → α), (∃ n ∈ l, P n) → (∀ n ∈ l, P n → u n = v) → (l.foldl step x) i = v
  | [], x, ⟨n, hn, _⟩, _ => absurd hn List.not_mem_nil
  | a :: l, x, hex, hall => by
    rw [List.foldl_cons]
    by_cases hl : ∃ n ∈ l, P n
    · exact foldl_hit step i P u v hmiss hhit l _ hl (fun n hn => hall n (List.mem_cons_of_mem _ hn))
    · rw [foldl_miss step i P hmiss l _ (fun n hn hp => hl ⟨n, hn, hp⟩)]
      obtain ⟨n, hn, hp⟩ := hex
      rcases List.mem_cons.1 hn with rfl | hn'
      · rw [hhit x n hp]
        exact hall n List.mem_cons_self hp
      · exact absurd ⟨n, hn', hp⟩ hl

end Overwrite

section ScatterRead
variable {s si u : Shape} {w : Nat} {α : Type}

/-- The update at `j` lands on `i` when, axis by axis, its window start plus its window coordinate is `i`'s coordinate. -/
private theorem resultIdx?_eq_some (d : ScatterDims s si u) (j : u.Idx) (idx : IVec si w) (i : s.Idx)
    (h : ∀ a, d.start j idx a + d.window j a = ((i a).val : Int)) : d.resultIdx? j idx = some i := by
  unfold ScatterDims.resultIdx?
  have H : ∀ a, 0 ≤ d.start j idx a + d.window j a ∧ d.start j idx a + d.window j a < s.size a := fun a => by
    rw [h a]; exact ⟨Int.natCast_nonneg _, by exact_mod_cast (i a).isLt⟩
  rw [dif_pos H]
  congr 1
  funext a
  apply Fin.ext
  show (d.start j idx a + d.window j a).toNat = (i a).val
  rw [h a]
  exact Int.toNat_natCast _

/-- and only then. -/
private theorem eq_of_resultIdx?_eq_some (d : ScatterDims s si u) (j : u.Idx) (idx : IVec si w) (i : s.Idx)
    (h : d.resultIdx? j idx = some i) (a : Fin s.rank) : d.start j idx a + d.window j a = ((i a).val : Int) := by
  unfold ScatterDims.resultIdx? at h
  split at h
  · rename_i H
    injection h with h
    subst h
    show _ = (((d.start j idx a + d.window j a).toNat : Nat) : Int)
    rw [Int.toNat_of_nonneg (H a).1]
  · cases h

/-- A scatter whose body returns the update, read at an element one update lands on, all the updates landing there
    carrying one value: that value. -/
private theorem scatter_set_apply (d : ScatterDims s si u) (x : s.Idx → α) (idx : IVec si w) (upd : u.Idx → α)
    (i : s.Idx) (j0 : u.Idx) (h0 : d.resultIdx? j0 idx = some i)
    (huniq : ∀ j, d.resultIdx? j idx = some i → upd j = upd j0) :
    Host.scatter d (fun _ b => b) x idx upd i = upd j0 := by
  unfold Host.scatter
  refine foldl_hit _ i (fun n => d.resultIdx? (u.rowMajor.symm n) idx = some i) (fun n => upd (u.rowMajor.symm n)) (upd j0) ?_ ?_ _ x
    ⟨u.rowMajor j0, List.mem_finRange _, by rw [Equiv.symm_apply_apply]; exact h0⟩ (fun n _ hn => huniq _ hn)
  · intro r n hn
    dsimp only
    cases heq : d.resultIdx? (u.rowMajor.symm n) idx with
    | none => rfl
    | some i1 =>
      show (if i = i1 then _ else r i) = r i
      rw [if_neg]
      intro e
      exact hn (by rw [heq, e])
  · intro r n hn
    dsimp only
    rw [hn]
    show (if i = i then _ else r i) = _
    rw [if_pos rfl]

end ScatterRead

/-! ## The blocks -/

/-- The activations as the region finds them: the argument, converted. -/
private theorem V_v4 (c : Dev nD) : @Eq (FVec Ideal S4x128x768 .bf16) (V m c main_v4)
    (truncf (F := Ideal) .bf16 (m ((c.tc : Thread nD τ).loc main_arg0) : FVec Ideal S4x128x768 .f32) Facts₀.bitsLt_bf16_f32) := by
  show StableHlo.after hostOps0 (fun b => m (c, b)) (Proc.devRef .tc main_v4) = _
  after_results

/-- Window 0's block at point (b, it): rows 16·it … 16·it+15 of batch b of the activations. -/
theorem blk0_apply (c : Dev nD) (b : Fin 4) (it : Fin 8) (a : Fin 16) (h : Fin 768) :
    (iblk m c 0 (pt b it) (ix3 0 a h) : EReal) = m ((c.tc : Thread nD τ).loc main_arg0) (ix3 b (⟨16 * it.val + a.val, by omega⟩ : Fin 128) h) := by
  show V m c main_v4 (((cfg0.win 0).blk (pt b it)).view.emb (ix3 0 a h)) = _
  rw [V_v4, truncf_apply]
  obtain ⟨e00, e01, e02, -⟩ := idx_facts (pt b it)
  have hv : (pt b it).val = 8 * b.val + it.val := rfl
  have hb : b.val < 4 := b.isLt
  have hit : it.val < 8 := it.isLt
  refine congrArg _ (funext fun ax => Fin.ext ?_)
  match ax with
  | ⟨0, _⟩ => show win0_0.index (pt b it) (0 : Fin 3) * 1 + 1 * 0 = b.val; omega
  | ⟨1, _⟩ => show win0_0.index (pt b it) (1 : Fin 3) * 16 + 1 * a.val = 16 * it.val + a.val; omega
  | ⟨2, _⟩ => show win0_0.index (pt b it) (2 : Fin 3) * 768 + 1 * h.val = h.val; omega

/-- Window 1's block at point (b, it): all of batch b of the activations. -/
theorem blk1_apply (c : Dev nD) (b : Fin 4) (it : Fin 8) (j : Fin 128) (h : Fin 768) :
    (iblk m c 1 (pt b it) (ix3 0 j h) : EReal) = m ((c.tc : Thread nD τ).loc main_arg0) (ix3 b j h) := by
  show V m c main_v4 (((cfg0.win 1).blk (pt b it)).view.emb (ix3 0 j h)) = _
  rw [V_v4, truncf_apply]
  obtain ⟨-, -, -, e10, e11, e12, -⟩ := idx_facts (pt b it)
  have hv : (pt b it).val = 8 * b.val + it.val := rfl
  have hb : b.val < 4 := b.isLt
  have hit : it.val < 8 := it.isLt
  refine congrArg _ (funext fun ax => Fin.ext ?_)
  match ax with
  | ⟨0, _⟩ => show win0_1.index (pt b it) (0 : Fin 3) * 1 + 1 * 0 = b.val; omega
  | ⟨1, _⟩ => show win0_1.index (pt b it) (1 : Fin 3) * 128 + 1 * j.val = j.val; omega
  | ⟨2, _⟩ => show win0_1.index (pt b it) (2 : Fin 3) * 768 + 1 * h.val = h.val; omega

/-- The upper half of the first weight matrix as the region finds it: rows 0 … 767 of the argument, converted. -/
private theorem V_v1 (c : Dev nD) : @Eq (FVec Ideal S768x2304 .bf16) (V m c main_v1)
    (truncf (F := Ideal) .bf16 (extractStridedSlice S768x2304 ![0, 0] (m ((c.tc : Thread nD τ).loc main_arg1) : FVec Ideal S1536x2304 .f32) Facts₀.slices_S1536x2304_S768x2304_0_0) Facts₀.bitsLt_bf16_f32) := by
  show StableHlo.after hostOps0 (fun b => m (c, b)) (Proc.devRef .tc main_v1) = _
  after_results

/-- Window 2's block: the upper half of the first weight matrix. -/
theorem blk2_apply (c : Dev nD) (t : Fin cfg0.N) (h : Fin 768) (k : Fin 2304) :
    (iblk m c 2 t (ix2 h k) : EReal) = m ((c.tc : Thread nD τ).loc main_arg1) (ix2 (⟨h.val, by omega⟩ : Fin 1536) k) := by
  show V m c main_v1 (((cfg0.win 2).blk t).view.emb (ix2 h k)) = _
  rw [V_v1, truncf_apply]
  obtain ⟨-, -, -, -, -, -, e20, e21, -, -, -, -, -, -⟩ := idx_facts t
  have hemb : ((cfg0.win 2).blk t).view.emb (ix2 h k) = ix2 h k := by
    funext a; apply Fin.ext
    match a with
    | ⟨0, _⟩ => show win0_2.index t (0 : Fin 2) * 768 + 1 * h.val = h.val; omega
    | ⟨1, _⟩ => show win0_2.index t (1 : Fin 2) * 2304 + 1 * k.val = k.val; omega
  rw [hemb]
  exact slice2_axis0_apply 0 _ _ h k ⟨h.val, by omega⟩ (by simp)

/-- The lower half: rows 768 … 1535 of the argument, converted. -/
private theorem V_v3 (c : Dev nD) : @Eq (FVec Ideal S768x2304 .bf16) (V m c main_v3)
    (truncf (F := Ideal) .bf16 (extractStridedSlice S768x2304 ![768, 0] (m ((c.tc : Thread nD τ).loc main_arg1) : FVec Ideal S1536x2304 .f32) Facts₀.slices_S1536x2304_S768x2304_768_0) Facts₀.bitsLt_bf16_f32) := by
  show StableHlo.after hostOps0 (fun b => m (c, b)) (Proc.devRef .tc main_v3) = _
  after_results

/-- Window 3's block: the lower half of the first weight matrix. -/
theorem blk3_apply (c : Dev nD) (t : Fin cfg0.N) (h : Fin 768) (k : Fin 2304) :
    (iblk m c 3 t (ix2 h k) : EReal) = m ((c.tc : Thread nD τ).loc main_arg1) (ix2 (⟨768 + h.val, by omega⟩ : Fin 1536) k) := by
  show V m c main_v3 (((cfg0.win 3).blk t).view.emb (ix2 h k)) = _
  rw [V_v3, truncf_apply]
  obtain ⟨-, -, -, -, -, -, -, -, e30, e31, -, -, -, -⟩ := idx_facts t
  have hemb : ((cfg0.win 3).blk t).view.emb (ix2 h k) = ix2 h k := by
    funext a; apply Fin.ext
    match a with
    | ⟨0, _⟩ => show win0_3.index t (0 : Fin 2) * 768 + 1 * h.val = h.val; omega
    | ⟨1, _⟩ => show win0_3.index t (1 : Fin 2) * 2304 + 1 * k.val = k.val; omega
  rw [hemb]
  exact slice2_axis0_apply 768 _ _ h k ⟨768 + h.val, by omega⟩ rfl

/-- The first bias is the argument itself. -/
private theorem V_arg2 (c : Dev nD) : (V m c main_arg2 : S2304.Idx → EReal) = m ((c.tc : Thread nD τ).loc main_arg2) := by
  show StableHlo.after hostOps0 (fun b => m (c, b)) (Proc.devRef .tc main_arg2) = _
  after_results

/-- Window 4's block: the first bias. -/
theorem blk4_apply (c : Dev nD) (t : Fin cfg0.N) (k : Fin 2304) :
    (iblk m c 4 t (ix1 k) : EReal) = m ((c.tc : Thread nD τ).loc main_arg2) (ix1 k) := by
  show V m c main_arg2 (((cfg0.win 4).blk t).view.emb (ix1 k)) = _
  rw [V_arg2]
  obtain ⟨-, -, -, -, -, -, -, -, -, -, e40, -, -, -⟩ := idx_facts t
  refine congrArg _ (funext fun a => Fin.ext ?_)
  match a with
  | ⟨0, _⟩ => show win0_4.index t (0 : Fin 1) * 2304 + 1 * k.val = k.val; omega

/-! ## The two padded arrays -/

/-- The scatters' one index word is zero. -/
private theorem idx0 (y : S1.Idx) : (broadcastInDim S1 ![] Facts₀.bcast_S_S1 (constantI S_ 32 0#32) : IVec S1 32) y = 0#32 := rfl

/-- With the index word zero, an update of the padded weight matrix lands at its own coordinates. -/
private theorem land5 (j : S2304x96.Idx) (idx : IVec S1 32) (hidx : ∀ y, idx y = 0#32) (a : Fin S2304x128.rank) :
    scatter_S2304x128_S1_S2304x96_01_n_1_0.start j idx a + scatter_S2304x128_S1_S2304x96_01_n_1_0.window j a = (((j a).val : Nat) : Int) := by
  have hs : scatter_S2304x128_S1_S2304x96_01_n_1_0.start j idx a = 0 := by
    unfold ScatterDims.start
    split
    · rw [hidx]; rfl
    · rfl
  rw [hs, Int.zero_add]
  match a with
  | ⟨0, _⟩ => rfl
  | ⟨1, _⟩ => rfl

/-- The second weight matrix as the region finds it: the argument, converted, written over the first 96 lanes of a zero array. -/
private theorem V_v8 (c : Dev nD) : @Eq (FVec Ideal S2304x128 .bf16) (V m c main_v8)
    (Host.scatter scatter_S2304x128_S1_S2304x96_01_n_1_0 (fun _ b => b)
      (broadcastInDim S2304x128 ![] Facts₀.bcast_S_S2304x128 (constant (F := Ideal) S_ .bf16 0x0000#16))
      (broadcastInDim S1 ![] Facts₀.bcast_S_S1 (constantI S_ 32 0#32))
      (truncf (F := Ideal) .bf16 (m ((c.tc : Thread nD τ).loc main_arg3) : FVec Ideal S2304x96 .f32) Facts₀.bitsLt_bf16_f32)) := by
  show StableHlo.after hostOps0 (fun b => m (c, b)) (Proc.devRef .tc main_v8) = _
  after_results

/-- Window 5's block on the first 96 lanes: the second weight matrix. -/
theorem blk5_apply (c : Dev nD) (t : Fin cfg0.N) (k : Fin 2304) (o : Fin 96) :
    (iblk m c 5 t (ix2 k (⟨o.val, by omega⟩ : Fin 128)) : EReal) = m ((c.tc : Thread nD τ).loc main_arg3) (ix2 k o) := by
  show V m c main_v8 (((cfg0.win 5).blk t).view.emb (ix2 k (⟨o.val, by omega⟩ : Fin 128))) = _
  rw [V_v8]
  obtain ⟨-, -, -, -, -, -, -, -, -, -, -, e50, e51, -⟩ := idx_facts t
  have hemb : ((cfg0.win 5).blk t).view.emb (ix2 k (⟨o.val, by omega⟩ : Fin 128)) = ix2 k (⟨o.val, by omega⟩ : Fin 128) := by
    funext a; apply Fin.ext
    match a with
    | ⟨0, _⟩ => show win0_5.index t (0 : Fin 2) * 2304 + 1 * k.val = k.val; omega
    | ⟨1, _⟩ => show win0_5.index t (1 : Fin 2) * 128 + 1 * o.val = o.val; omega
  rw [hemb]
  refine (scatter_set_apply scatter_S2304x128_S1_S2304x96_01_n_1_0 _ _ _ (ix2 k (⟨o.val, by omega⟩ : Fin 128)) (ix2 k o) ?_ ?_).trans (truncf_apply _ _ _)
  · refine resultIdx?_eq_some _ _ _ _ (fun a => (land5 _ _ idx0 a).trans ?_)
    match a with
    | ⟨0, _⟩ => rfl
    | ⟨1, _⟩ => rfl
  · intro j hj
    have e : j = ix2 k o := by
      funext a
      apply Fin.ext
      have h1 := eq_of_resultIdx?_eq_some _ _ _ _ hj a
      rw [land5 _ _ idx0 a] at h1
      have h2 : (j a).val = ((ix2 k (⟨o.val, by omega⟩ : Fin 128) : S2304x128.Idx) a).val := by exact_mod_cast h1
      rw [h2]
      match a with
      | ⟨0, _⟩ => rfl
      | ⟨1, _⟩ => rfl
    rw [e]

/-- With the index word zero, an update of the padded bias lands at its own coordinate. -/
private theorem land6 (j : S96.Idx) (idx : IVec S1 32) (hidx : ∀ y, idx y = 0#32) (a : Fin S128.rank) :
    scatter_S128_S1_S96_0_n_0_0.start j idx a + scatter_S128_S1_S96_0_n_0_0.window j a = (((j a).val : Nat) : Int) := by
  have hs : scatter_S128_S1_S96_0_n_0_0.start j idx a = 0 := by
    unfold ScatterDims.start
    split
    · rw [hidx]; rfl
    · rfl
  rw [hs, Int.zero_add]
  match a with
  | ⟨0, _⟩ => rfl

/-- The second bias as the region finds it: the argument written over the first 96 lanes of a zero array. -/
private theorem V_v11 (c : Dev nD) : @Eq (FVec Ideal S128 .f32) (V m c main_v11)
    (Host.scatter scatter_S128_S1_S96_0_n_0_0 (fun _ b => b)
      (broadcastInDim S128 ![] Facts₀.bcast_S_S128 (constant (F := Ideal) S_ .f32 0x00000000#32))
      (broadcastInDim S1 ![] Facts₀.bcast_S_S1 (constantI S_ 32 0#32))
      (m ((c.tc : Thread nD τ).loc main_arg4) : FVec Ideal S96 .f32)) := by
  show StableHlo.after hostOps0 (fun b => m (c, b)) (Proc.devRef .tc main_v11) = _
  after_results

/-- Window 6's block on the first 96 lanes: the second bias. -/
theorem blk6_apply (c : Dev nD) (t : Fin cfg0.N) (o : Fin 96) :
    (iblk m c 6 t (ix1 (⟨o.val, by omega⟩ : Fin 128)) : EReal) = m ((c.tc : Thread nD τ).loc main_arg4) (ix1 o) := by
  show V m c main_v11 (((cfg0.win 6).blk t).view.emb (ix1 (⟨o.val, by omega⟩ : Fin 128))) = _
  rw [V_v11]
  obtain ⟨-, -, -, -, -, -, -, -, -, -, -, -, -, e60⟩ := idx_facts t
  have hemb : ((cfg0.win 6).blk t).view.emb (ix1 (⟨o.val, by omega⟩ : Fin 128)) = ix1 (⟨o.val, by omega⟩ : Fin 128) := by
    funext a; apply Fin.ext
    match a with
    | ⟨0, _⟩ => show win0_6.index t (0 : Fin 1) * 128 + 1 * o.val = o.val; omega
  rw [hemb]
  refine scatter_set_apply scatter_S128_S1_S96_0_n_0_0 _ _ _ (ix1 (⟨o.val, by omega⟩ : Fin 128)) (ix1 o) ?_ ?_
  · refine resultIdx?_eq_some _ _ _ _ (fun a => (land6 _ _ idx0 a).trans ?_)
    match a with
    | ⟨0, _⟩ => rfl
  · intro j hj
    have e : j = ix1 o := by
      funext a
      apply Fin.ext
      have h1 := eq_of_resultIdx?_eq_some _ _ _ _ hj a
      rw [land6 _ _ idx0 a] at h1
      have h2 : (j a).val = ((ix1 (⟨o.val, by omega⟩ : Fin 128) : S128.Idx) a).val := by exact_mod_cast h1
      rw [h2]
      match a with
      | ⟨0, _⟩ => rfl
    rw [e]

end Cert.KernelIdeal.Hand

end
-- ==== Proof.KI.Tail.lean ====
/- The result buffer after the two host operations that follow the region: the output array's first 96 lanes,
   regrouped as 24 × 4. -/
import proofs.«130901_j33998961115715_1_alg».proof.Proof.Gen.KernelIdeal.Launch
import proofs.«130901_j33998961115715_1_alg».proof.Proof.Gen.KernelIdeal.Skeleton
import proofs.«130901_j33998961115715_1_alg».proof.Proof.Gen.KernelIdeal.Points
import proofs.«130901_j33998961115715_1_alg».proof.Proof.KI.Data
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result at the end of @main is the reshape of the slice of the output array as the region left it. -/
theorem VT_main_v14 (c : Dev nD) : VT m c main_v14
    = shapeCast S4x128x128x24x4 (extractStridedSlice S4x128x128x96 ![0, 0, 0, 0] ((dats m 0 c).arrAt 7 cfg0.N) Facts₀.slices_S4x128x128x128_S4x128x128x96_0_0_0_0) Facts₀.shapeCasts_S4x128x128x96_S4x128x128x24x4 := by
  have e : Wexit m c (Proc.devRef .tc main_v12) = (dats m 0 c).arrAt 7 cfg0.N := by
    unfold Wexit; exact Function.update_self _ _ _
  unfold VT
  show StableHlo.after hostOps1 _ (Proc.devRef .tc main_v14) = _
  after_results
  rw [e]
  rfl

end Cert.KernelIdeal.Hand

end
-- ==== Proof.Bridge.lean ====
/- The two programs compute the same scores: the kernel's output array on its first 96 lanes, read at an index, is
   the reference's sum of rectified pair activations against the second weight matrix plus the second bias, term by
   term; the padding lanes are cut off by the slice that follows the region, and both programs end with the same
   regrouping of the 96 lanes as 24 × 4. -/
import proofs.«130901_j33998961115715_1_alg».proof.Proof.KI.Value
import proofs.«130901_j33998961115715_1_alg».proof.Proof.KI.PayAt
import proofs.«130901_j33998961115715_1_alg».proof.Proof.KI.Blocks
import proofs.«130901_j33998961115715_1_alg».proof.Proof.KI.Tail
import proofs.«130901_j33998961115715_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ)

section Ref
open Cert.ReferenceIdeal Cert.ReferenceIdeal.Read

/-! ### The reference's composed index functions, by coordinates -/

private theorem ref_l2 (b : Fin 4) (r j : Fin 128) (o : Fin 96) (k : Fin 2304) (h : Fin 768) :
    lidx_main_v2 (idx_main_v4 (idx_main_v6 (lidx_main_v13 (ix4 b r j o) k))) h = ix3 b r h := by
  funext a; match a with | ⟨0, _⟩ => rfl | ⟨1, _⟩ => rfl | ⟨2, _⟩ => rfl

private theorem ref_r2 (b : Fin 4) (r j : Fin 128) (o : Fin 96) (k : Fin 2304) (h : Fin 768) :
    idx_main_v0 (ridx_main_v2 (idx_main_v4 (idx_main_v6 (lidx_main_v13 (ix4 b r j o) k))) h)
      = ix2 (⟨h.val, by omega⟩ : Fin 1536) k := by
  funext a; match a with | ⟨0, _⟩ => rfl | ⟨1, _⟩ => rfl

private theorem ref_l3 (b : Fin 4) (r j : Fin 128) (o : Fin 96) (k : Fin 2304) (h : Fin 768) :
    lidx_main_v3 (idx_main_v5 (idx_main_v7 (lidx_main_v13 (ix4 b r j o) k))) h = ix3 b j h := by
  funext a; match a with | ⟨0, _⟩ => rfl | ⟨1, _⟩ => rfl | ⟨2, _⟩ => rfl

private theorem ref_r3 (b : Fin 4) (r j : Fin 128) (o : Fin 96) (k : Fin 2304) (h : Fin 768) :
    idx_main_v1 (ridx_main_v3 (idx_main_v5 (idx_main_v7 (lidx_main_v13 (ix4 b r j o) k))) h)
      = ix2 (⟨768 + h.val, by omega⟩ : Fin 1536) k := by
  funext a; match a with | ⟨0, _⟩ => rfl | ⟨1, _⟩ => rfl

private theorem ref_b1 (b : Fin 4) (r j : Fin 128) (o : Fin 96) (k : Fin 2304) :
    idx_main_v9 (idx_main_v10 (lidx_main_v13 (ix4 b r j o) k)) = ix1 k := by
  funext a; match a with | ⟨0, _⟩ => rfl

private theorem ref_w2 (b : Fin 4) (r j : Fin 128) (o : Fin 96) (k : Fin 2304) :
    ridx_main_v13 (ix4 b r j o) k = ix2 k o := by
  funext a; match a with | ⟨0, _⟩ => rfl | ⟨1, _⟩ => rfl

private theorem ref_b2 (b : Fin 4) (r j : Fin 128) (o : Fin 96) :
    idx_main_v14 (idx_main_v15 (ix4 b r j o)) = ix1 o := by
  funext a; match a with | ⟨0, _⟩ => rfl

/-- The reference's score at (b, r, j, o): the rectified pair activation of rows r and j of batch b against column o
    of the second weight matrix, plus the second bias at o. -/
private theorem ref_apply (x0 : (⟨S4x128x768, .f32⟩ : BufTy).Contents (Elt Ideal)) (x1 : (⟨S1536x2304, .f32⟩ : BufTy).Contents (Elt Ideal))
    (x2 : (⟨S2304, .f32⟩ : BufTy).Contents (Elt Ideal)) (x3 : (⟨S2304x96, .f32⟩ : BufTy).Contents (Elt Ideal))
    (x4 : (⟨S96, .f32⟩ : BufTy).Contents (Elt Ideal)) (b : Fin 4) (r j : Fin 128) (o : Fin 96) :
    val_main_v16 (F := Ideal) x0 x1 x2 x3 x4 (ix4 b r j o)
      = ((∑ k : Fin 2304, max ((((∑ h : Fin 768, (x0 (ix3 b r h) : EReal) * (x1 (ix2 (⟨h.val, by omega⟩ : Fin 1536) k) : EReal))
            + (∑ h : Fin 768, (x0 (ix3 b j h) : EReal) * (x1 (ix2 (⟨768 + h.val, by omega⟩ : Fin 1536) k) : EReal)))
            + (x2 (ix1 k) : EReal))) (Ideal.ofBits .f32 0x00000000#32)
          * (x3 (ix2 k o) : EReal)) + (x4 (ix1 o) : EReal) : EReal) := by
  simp only [val_main_v16_apply, val_main_v15_apply, val_main_v14_apply, val_main_v13_apply, val_main_v12_apply,
    val_main_call0_v0_apply, val_main_call0_cst_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, Ideal.addf_def, Ideal.maximumf_def, Ideal.ofBits_def,
    ref_l2, ref_r2, ref_l3, ref_r3, ref_b1, ref_w2, ref_b2]

end Ref

/-- The kernel's output array cut to its first 96 lanes is the reference's score tensor of the same arguments. -/
theorem score_eq (c : Dev Cert.KernelIdeal.nD) :
    extractStridedSlice Cert.KernelIdeal.S4x128x128x96 ![0, 0, 0, 0] ((Cert.KernelIdeal.Hand.dats m 0 c).arrAt 7 Cert.KernelIdeal.cfg0.N)
        Cert.KernelIdeal.Facts₀.slices_S4x128x128x128_S4x128x128x96_0_0_0_0
      = Cert.ReferenceIdeal.Read.val_main_v16 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext i
  obtain ⟨b, r, j, o, rfl⟩ : ∃ (b : Fin 4) (r : Fin 128) (j : Fin 128) (o : Fin 96), i = ix4 b r j o := ⟨i 0, i 1, i 2, i 3, eq_ix4 i⟩
  rw [ref_apply]
  rw [extractStridedSlice_apply ![0, 0, 0, 0] _ _ (ix4 b r j o)
    (ix4 b (⟨16 * (⟨r.val / 16, by omega⟩ : Fin 8).val + (⟨r.val % 16, by omega⟩ : Fin 16).val, by omega⟩ : Fin 128) j (⟨o.val, by omega⟩ : Fin 128))
    (fun a => match a with
      | ⟨0, _⟩ => by show b.val = 0 + b.val; omega
      | ⟨1, _⟩ => by show 16 * (r.val / 16) + r.val % 16 = 0 + r.val; omega
      | ⟨2, _⟩ => by show j.val = 0 + j.val; omega
      | ⟨3, _⟩ => by show o.val = 0 + o.val; omega)]
  rw [Cert.KernelIdeal.Hand.arrAt7_apply, Cert.KernelIdeal.Hand.out7_apply]
  have hr : (⟨16 * (⟨r.val / 16, by omega⟩ : Fin 8).val + (⟨r.val % 16, by omega⟩ : Fin 16).val, by omega⟩ : Fin 128) = r :=
    Fin.ext (by show 16 * (r.val / 16) + r.val % 16 = r.val; omega)
  simp only [Cert.KernelIdeal.Hand.blk0_apply, Cert.KernelIdeal.Hand.blk1_apply, Cert.KernelIdeal.Hand.blk2_apply,
    Cert.KernelIdeal.Hand.blk3_apply, Cert.KernelIdeal.Hand.blk4_apply, Cert.KernelIdeal.Hand.blk5_apply,
    Cert.KernelIdeal.Hand.blk6_apply, hr]

/-- The kernel program's result is the reference's result of the same arguments. -/
theorem result_eq (c : Dev Cert.KernelIdeal.nD) :
    Cert.KernelIdeal.Hand.VT m c Cert.KernelIdeal.main_v14
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [Cert.KernelIdeal.Hand.VT_main_v14, score_eq]
  rfl

end Cert.Bridge

end
-- ==== Proof.lean ====
/- The certificate: the hand-written kernel and its reference compute the same pairwise scores over the extended reals.
   Both programs first project every position's activations with the two halves of the first weight matrix, add the
   "head" projection of position i to the "tail" projection of position j and the first bias, rectify, and contract
   with the second weight matrix and add the second bias. The kernel does this one tile of sixteen rows i at a time,
   against weights padded with zero columns from 96 to 128 lanes that a slice cuts off again; entry by entry the two
   results are the same nested sum, so no law of arithmetic beyond rewriting is needed and the precondition is not
   opened. The three programs run to their end with their arguments unchanged; the idealized kernel is the printed
   kernel's own text read over the extended reals, so nothing is owed for that step. -/
import proofs.«130901_j33998961115715_1_alg».proof.Defs
import proofs.«130901_j33998961115715_1_alg».proof.Proof.K.Run
import proofs.«130901_j33998961115715_1_alg».proof.Proof.KI.Run
import proofs.«130901_j33998961115715_1_alg».proof.Proof.Bridge
import proofs.«130901_j33998961115715_1_alg».proof.Proof.Gen.ReferenceIdeal
import proofs.«130901_j33998961115715_1_alg».proof.Proof.Gen.ReferenceIdeal.Run
import proofs.«130901_j33998961115715_1_alg».proof.Proof.Gen.ReferenceIdeal.Read
import proofs.«130901_j33998961115715_1_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Hand.VT m c Cert.KernelIdeal.main_v14,
    Cert.KernelIdeal.Hand.run_value m ρ,
    (θ_run Cert.ReferenceIdeal.defs _ _).mono (fun _ h c =>
      ⟨(h c).1.trans ((Cert.ReferenceIdeal.Read.val_main_v17_eq _ _ _ _ _).trans (by
          rw [(hagree c).1, (hagree c).2.1, (hagree c).2.2.1, (hagree c).2.2.2.1, (hagree c).2.2.2.2]
          exact (Cert.Bridge.result_eq m c).symm)),
        (h c).2⟩)
      (Cert.ReferenceIdeal.Value.run (F := Ideal) m' ρ')⟩⟩

end Cert.Proof

end
